-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8192x8x2048 : Shape := ⟨3, ![8192, 8, 2048]⟩
abbrev S8x4096x1024 : Shape := ⟨3, ![8, 4096, 1024]⟩
abbrev S8x1x1024 : Shape := ⟨3, ![8, 1, 1024]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8192x8x2048 : S_.BroadcastsInDim S8192x8x2048 (![] : Fin 0 → Fin S8192x8x2048.rank)
  reducesTo_S8192x8x2048_S_d0_1_2 : S8192x8x2048.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_v13 : IVec S_ 1) (main_v16 : IVec S8x1x1024 1) : IVec S_ 1 :=
  let main_c_5 : IVec S_ 1 := constantI S_ 1 1#1
  let main_v17 : IVec S_ 1 := (fun x v => Host.reduce IntOp.andi x v reducesTo_S8x1x1024_S_d0_1_2 h_S_) main_v16 main_c_5
  let main_v18 : IVec S_ 1 := andi main_v13 main_v17
  main_v18

def fn {F : FTy → Type} [FloatOps F] (main_arg0 : FVec F S16384x4096 .f32) (main_arg1 : FVec F S8192x8x2048 .f32) (main_arg2 : FVec F S8x4096x1024 .f32) (main_arg3 : FVec F S8x1x1024 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8192x8x2048 .f32 := Host.absf main_arg1
  let main_cst_0 : FVec F S_ .f32 := constant S_ .f32 0x7F800000#32
  let main_v5 : FVec F S8192x8x2048 .f32 := broadcastInDim S8192x8x2048 ![] bcast_S_S8192x8x2048 main_cst_0
  let main_v6 : IVec S8192x8x2048 1 := cmpf .olt main_v4 main_v5
  let main_c_1 : IVec S_ 1 := constantI S_ 1 1#1
  let main_v7 : IVec S_ 1 := (fun x v => Host.reduce IntOp.andi x v reducesTo_S8192x8x2048_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  let main_v14 : FVec F S8x1x1024 .f32 := Host.absf main_arg3
  let main_cst_4 : FVec F S_ .f32 := constant S_ .f32 0x7F800000#32
  let main_v15 : FVec F S8x1x1024 .f32 := broadcastInDim S8x1x1024 ![] bcast_S_S8x1x1024 main_cst_4
  let main_v16 : IVec S8x1x1024 1 := cmpf .olt main_v14 main_v15
  fn_part1 (F := F) main_v13 main_v16
-- ==== Kernel.lean ====
abbrev S16384x4096 : Shape := ⟨2, ![16384, 4096]⟩
abbrev S8192x8x2048 : Shape := ⟨3, ![8192, 8, 2048]⟩
abbrev S8x4096x1024 : Shape := ⟨3, ![8, 4096, 1024]⟩
abbrev S8x1x1024 : Shape := ⟨3, ![8, 1, 1024]⟩
abbrev S16384x1024 : Shape := ⟨2, ![16384, 1024]⟩
abbrev S1024x1024 : Shape := ⟨2, ![1024, 1024]⟩
abbrev S1x1024x1024 : Shape := ⟨3, ![1, 1024, 1024]⟩
abbrev S1x1x1024 : Shape := ⟨3, ![1, 1, 1024]⟩
abbrev S1024 : Shape := ⟨1, ![1024]⟩
abbrev S1x1024 : Shape := ⟨2, ![1, 1024]⟩
abbrev S8192x16384 : Shape := ⟨2, ![8192, 16384]⟩
abbrev S8192x1024 : Shape := ⟨2, ![8192, 1024]⟩
abbrev S512x2048 : Shape := ⟨2, ![512, 2048]⟩
abbrev S2048x1024 : Shape := ⟨2, ![2048, 1024]⟩
abbrev S512x1024 : Shape := ⟨2, ![512, 1024]⟩
abbrev S4x2048x1024 : Shape := ⟨3, ![4, 2048, 1024]⟩

abbrev nBuf : Space → Nat
  | .hbm => 8
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S8192x8x2048, .f32⟩
  | .hbm, ⟨2, _⟩ => ⟨S8x4096x1024, .f32⟩
  | .hbm, ⟨3, _⟩ => ⟨S8x1x1024, .f32⟩
  | .hbm, ⟨4, _⟩ => ⟨S16384x1024, .bf16⟩
  | .hbm, ⟨5, _⟩ => ⟨S8192x16384, .f32⟩
  | .hbm, ⟨6, _⟩ => ⟨S8192x1024, .f32⟩
  | .hbm, ⟨7, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S512x2048, .f32⟩
  | .local _ .vmem, ⟨10, _⟩ => ⟨S512x2048, .f32⟩
  | .local _ .vmem, ⟨11, _⟩ => ⟨S2048x1024, .bf16⟩
  | .local _ .vmem, ⟨12, _⟩ => ⟨S2048x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  ![v1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S8192x8x2048_S8192x16384 : S8192x8x2048.ShapeCasts S8192x16384
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S8192x1024_S4x2048x1024 : S8192x1024.ShapeCasts S4x2048x1024
  dot_S1024x1024_S1024x1024_S1024x1024_1_0_0_1_n_n_wf : DotDims.WF S1024x1024 S1024x1024 S1024x1024 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .f32 = 32 ∨ (Rect.block (s := S8x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .bf16 = 32 ∨ (Rect.block (s := S16384x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x16384.size a
  hwx1_0 : ∀ i : grid1.Coords, EltTy.bits .f32 = 32 ∨ (Rect.block (s := S8192x16384) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1024.size a ≤ S16384x1024.size a
  hwx1_1 : ∀ i : grid1.Coords, EltTy.bits .bf16 = 32 ∨ (Rect.block (s := S16384x1024) S2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .f32 = 32 ∨ (Rect.block (s := S8192x1024) S512x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S8192x8x2048 : Shape := ⟨3, ![8192, 8, 2048]⟩
abbrev S8x4096x1024 : Shape := ⟨3, ![8, 4096, 1024]⟩
abbrev S8x1x1024 : Shape := ⟨3, ![8, 1, 1024]⟩
abbrev S8x2048x4096 : Shape := ⟨3, ![8, 2048, 4096]⟩
abbrev S8x2048x1024 : Shape := ⟨3, ![8, 2048, 1024]⟩
abbrev S8x1x2048x1024 : Shape := ⟨4, ![8, 1, 2048, 1024]⟩
abbrev S1x8x2048x1024 : Shape := ⟨4, ![1, 8, 2048, 1024]⟩
abbrev S16384x1024 : Shape := ⟨2, ![16384, 1024]⟩
abbrev S8192x16384 : Shape := ⟨2, ![8192, 16384]⟩
abbrev S8192x1024 : Shape := ⟨2, ![8192, 1024]⟩
abbrev S4x2048x1024 : Shape := ⟨3, ![4, 2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8192x8x2048, .f32⟩
  | .hbm, ⟨2, _⟩ => ⟨S8x4096x1024, .f32⟩
  | .hbm, ⟨3, _⟩ => ⟨S8x1x1024, .f32⟩
  | .hbm, ⟨4, _⟩ => ⟨S8x2048x4096, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x1x2048x1024, .f32⟩
  | .hbm, ⟨9, _⟩ => ⟨S1x8x2048x1024, .f32⟩
  | .hbm, ⟨10, _⟩ => ⟨S16384x1024, .f32⟩
  | .hbm, ⟨11, _⟩ => ⟨S8192x16384, .f32⟩
  | .hbm, ⟨12, _⟩ => ⟨S8192x1024, .f32⟩
  | .hbm, ⟨13, _⟩ => ⟨S4x2048x1024, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S16384x4096_S8x2048x4096 : S16384x4096.ShapeCasts S8x2048x4096
  bcast_S8x1x1024_S8x2048x1024_0_1_2 : S8x1x1024.BroadcastsInDim S8x2048x1024 (![0, 1, 2] : Fin 3 → Fin S8x2048x1024.rank)
  shapeCasts_S8x2048x1024_S8x1x2048x1024 : S8x2048x1024.ShapeCasts S8x1x2048x1024
  transposes_S8x1x2048x1024_S1x8x2048x1024_1_0_2_3 : S8x1x2048x1024.Transposes [1, 0, 2, 3] S1x8x2048x1024
  shapeCasts_S1x8x2048x1024_S16384x1024 : S1x8x2048x1024.ShapeCasts S16384x1024
  shapeCasts_S8192x8x2048_S8192x16384 : S8192x8x2048.ShapeCasts S8192x16384
  shapeCasts_S8192x1024_S4x2048x1024 : S8192x1024.ShapeCasts S4x2048x1024
  dot_S8x2048x4096_S8x4096x1024_S8x2048x1024_2_1_1_2_0_0_wf : DotDims.WF S8x2048x4096 S8x4096x1024 S8x2048x1024 [2] [1] [1] [2] [0] [0]
  dot_S8192x16384_S16384x1024_S8192x1024_1_0_0_1_n_n_wf : DotDims.WF S8192x16384 S16384x1024 S8192x1024 [1] [0] [0] [1] [] []

variable [Facts₀]

def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf
def dot_S8192x16384_S16384x1024_S8192x1024_1_0_0_1_n_n : DotDims S8192x16384 S16384x1024 S8192x1024 where
  lhsContracting := [1]
  rhsContracting := [0]
  lhsNonContracting := [0]
  rhsNonContracting := [1]
  lhsBatch := []
  rhsBatch := []
  wf := dot_S8192x16384_S16384x1024_S8192x1024_1_0_0_1_n_n_wf

class Facts : Prop extends Facts₀ where

variable [Facts]
-- ==== Proof.Kernel.Conds.lean ====
/-
  The two matrix-product kernels, point by point: where each sits in its reduction.

  The first kernel's grid is 8 experts × 2 row tiles × 4 tiles of the contracted axis, the last coordinate moving
  fastest, so point t is the tile (t / 8, (t / 4) % 2, t % 4): the accumulator is cleared where t % 4 = 0 and the
  finished row tile is written out, with the bias added, where t % 4 = 3. The second kernel's grid is 16 row tiles
  × 8 tiles of the contracted axis: cleared where t % 8 = 0, written out where t % 8 = 7. Both facts are decided
  over the grids. The output window is idle, and not written back, at every point that is not the last of its
  reduction; the input windows are never idle, so each holds its block of the array at every point.
-/
import proofs.«133026_j71571335020920_1_alg».proof.Proof.Gen.Kernel.Launch
import proofs.«133026_j71571335020920_1_alg».proof.Proof.Gen.Kernel.Skeleton
import proofs.«133026_j71571335020920_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel (the grouped product) -/

/-- The accumulator is cleared at this point: the contracted-axis coordinate is 0. -/
abbrev first0 (i : grid0.Coords) : Prop := (Scalar.cmpi .ne (Scalar.extui (Scalar.cmpi .eq (BitVec.ofNat 32 (i 2).val) 0#32)) 0#32) = 1#1
theorem hfirst0 : ∀ t : Fin cfg0.N, first0 (grid0.coords t) ↔ t.val % 4 = 0 :=
  (by decide +kernel : ∀ t : Fin grid0.N, first0 (grid0.coords t) ↔ t.val % 4 = 0)
/-- The row tile is finished at this point: the contracted-axis coordinate is 3. -/
abbrev last0 (i : grid0.Coords) : Prop := k0_cond2 i = 1#1
theorem hlast0 : ∀ t : Fin cfg0.N, last0 (grid0.coords t) ↔ t.val % 4 = 3 :=
  (by decide +kernel : ∀ t : Fin grid0.N, last0 (grid0.coords t) ↔ t.val % 4 = 3)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last tile of a reduction the output window is idle and is not written back. -/
theorem idle0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
theorem live0_3 : ∀ t : Fin cfg0.N, last0 (grid0.coords t) → cfg0.idle 3 (grid0.coords t) = false := by decide +kernel

/-- Each window's current staging memref at point `t`, as the pipeline passes it to the body. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S1024x1024 .f32 := Memref.whole cc0_scratch0

/-! ## The second kernel (the combination) -/

abbrev first1 (i : grid1.Coords) : Prop := (Scalar.cmpi .ne (Scalar.extui (Scalar.cmpi .eq (BitVec.ofNat 32 (i 1).val) 0#32)) 0#32) = 1#1
theorem hfirst1 : ∀ t : Fin cfg1.N, first1 (grid1.coords t) ↔ t.val % 8 = 0 :=
  (by decide +kernel : ∀ t : Fin grid1.N, first1 (grid1.coords t) ↔ t.val % 8 = 0)
abbrev last1 (i : grid1.Coords) : Prop := k1_cond2 i = 1#1
theorem hlast1 : ∀ t : Fin cfg1.N, last1 (grid1.coords t) ↔ t.val % 8 = 7 :=
  (by decide +kernel : ∀ t : Fin grid1.N, last1 (grid1.coords t) ↔ t.val % 8 = 7)

theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev scM1 : Memref sig .tc .vmem S512x1024 .f32 := Memref.whole cc1_scratch0

/-! ## What the region hands each kernel besides its windows -/

/-- The first kernel's invariant before its first point: its accumulator at anything, the core's other scoped buffers
    at anything, the generator register at some state. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0, owns_whole]; try rfl

section Blocks

variable (V : (c : Dev nD) → (b : Ref sig .tc) → Buf (Elt F) ((c : Thread nD τ).loc b))

/-- Window `w`'s block at point `t` of the first kernel, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same for the second kernel. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block of the array at every point, fetched there or not: where
    the pipeline does not fetch, the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-- The second kernel's invariant before its first point: its accumulator at anything, the core's other scoped buffers
    at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

end Cert.Kernel.Run

end
-- ==== Proof.Kernel.Body0.lean ====
/-
  The grouped-product kernel's body at one grid point, in each of the three positions a point can have in its
  reduction over the contracted axis. In every position the body adds to the accumulator the product of the point's
  tile of tokens with the point's tile of the expert's weights. At the FIRST tile of a reduction it clears the
  accumulator beforehand, so whatever the accumulator held does not matter; at the LAST tile it then adds the expert's
  bias row to every row of the accumulator and stores the sum into the output tile; in BETWEEN it does neither, and
  the output tile's buffer is handed back as it was found. Each run leaves the accumulator (and at the last tile the
  output buffer) as a list of stored pieces, which the run itself determines.
-/
import proofs.«133026_j71571335020920_1_alg».proof.Proof.Kernel.Conds

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First tile of a reduction (not the last): the accumulator may hold anything. -/
noncomputable def run0_first (c : Dev nD) (i : grid0.Coords) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x1024 .f32) (harg7 : arg7.IsWhole) (hc0 : first0 i) (hc1 : ¬last0 i)
    (x0 : Vec F S1024x1024 .f32) (x1 : Vec F S1x1024x1024 .f32) :
    { LS : List (View.Piece (Elt F) S1024x1024 .f32) //
      ∀ (x2 : Vec F S1x1x1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__expert_gemm_kernel i arg3 harg3 arg4 harg4 arg5 harg5 arg6 harg6 arg7 harg7) K } := by
  refine ⟨?_, fun x2 xi3 E K => ?run⟩
  case run =>
    simp only [cc0__expert_gemm_kernel_eq_skeleton]; unfold cc0__expert_gemm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- A tile in between: the accumulator holds what the point before left. -/
noncomputable def run0_mid (c : Dev nD) (i : grid0.Coords) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬first0 i) (hc1 : ¬last0 i)
    (x0 : Vec F S1024x1024 .f32) (x1 : Vec F S1x1024x1024 .f32) (xs : Vec F S1024x1024 .f32) :
    { LS : List (View.Piece (Elt F) S1024x1024 .f32) //
      ∀ (x2 : Vec F S1x1x1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__expert_gemm_kernel i arg3 harg3 arg4 harg4 arg5 harg5 arg6 harg6 arg7 harg7) K } := by
  refine ⟨?_, fun x2 xi3 E K => ?run⟩
  case run =>
    simp only [cc0__expert_gemm_kernel_eq_skeleton]; unfold cc0__expert_gemm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- Last tile of a reduction (not the first): the output tile's buffer may hold anything and ends with its pieces stored. -/
noncomputable def run0_last (c : Dev nD) (i : grid0.Coords) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬first0 i) (hc1 : last0 i)
    (x0 : Vec F S1024x1024 .f32) (x1 : Vec F S1x1024x1024 .f32) (x2 : Vec F S1x1x1024 .f32) (xs : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__expert_gemm_kernel i arg3 harg3 arg4 harg4 arg5 harg5 arg6 harg6 arg7 harg7) K } := by
  refine ⟨?_, ?_, fun E K => ?run⟩
  case run =>
    simp only [cc0__expert_gemm_kernel_eq_skeleton]; unfold cc0__expert_gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Run

end
-- ==== Proof.Kernel.Region0.lean ====
/-
  The grouped-product kernel over its whole grid.

  The accumulator after point t is defined by recursion on t: at the first tile of a reduction (t % 4 = 0) it is the
  product of the point's two tiles added to zero, at any other tile it is that product added to what point t - 1
  left. The output tile's buffer after the last tile of a reduction is the accumulator with the expert's bias row
  added to every row. The region's invariant carries the accumulator from point to point at exactly these contents
  (before the first point it holds anything), beside the core's other scoped buffers and the generator register,
  which the body does not touch. With this the body obligation holds at every point: a case split on the point's
  position in its reduction, each case one of the three runs of the body.
-/
import proofs.«133026_j71571335020920_1_alg».proof.Proof.Kernel.Body0
import Idealize.ShloMosaic.Lib.Pipeline.Value

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator as a view, through which its contents are stated. -/
abbrev VS0 : View sig .tc .vmem S1024x1024 .f32 := scM0.view
/-- One staging buffer of the output window, through which its contents are stated. -/
abbrev VO0 : View sig .tc .vmem S1024x1024 .bf16 := (Memref.whole cc0_stg3_0 : Memref sig .tc .vmem S1024x1024 .bf16).view

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

/-! ## What each case's stored pieces amount to -/

section Cases
variable (c : Dev nD) (i : grid0.Coords) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x1024 .f32) (harg7 : arg7.IsWhole)

theorem scover0_first (hc0 : first0 i) (hc1 : ¬last0 i) (x0 : Vec F S1024x1024 .f32) (x1 : Vec F S1x1024x1024 .f32) (y : S1024x1024.Idx) :
    ∃ pc ∈ (run0_first c i arg3 harg3 arg4 harg4 arg5 harg5 arg6 harg6 arg7 harg7 hc0 hc1 x0 x1).1, y ∈ pc.1.set :=
  View.cover_of_tiledL _ S1024x1024.size (by sl_kernel_rfl) y
theorem scover0_mid (hc0 : ¬first0 i) (hc1 : ¬last0 i) (x0 : Vec F S1024x1024 .f32) (x1 : Vec F S1x1024x1024 .f32) (xs : Vec F S1024x1024 .f32) (y : S1024x1024.Idx) :
    ∃ pc ∈ (run0_mid c i arg3 harg3 arg4 harg4 arg5 harg5 arg6 harg6 arg7 harg7 hc0 hc1 x0 x1 xs).1, y ∈ pc.1.set :=
  View.cover_of_tiledL _ S1024x1024.size (by sl_kernel_rfl) y
theorem scover0_last (hc0 : ¬first0 i) (hc1 : last0 i) (x0 : Vec F S1024x1024 .f32) (x1 : Vec F S1x1024x1024 .f32) (x2 : Vec F S1x1x1024 .f32) (xs : Vec F S1024x1024 .f32) (y : S1024x1024.Idx) :
    ∃ pc ∈ (run0_last c i arg3 harg3 arg4 harg4 arg5 harg5 arg6 harg6 arg7 harg7 hc0 hc1 x0 x1 x2 xs).2.1, y ∈ pc.1.set :=
  View.cover_of_tiledL _ S1024x1024.size (by sl_kernel_rfl) y
theorem ocover0_last (hc0 : ¬first0 i) (hc1 : last0 i) (x0 : Vec F S1024x1024 .f32) (x1 : Vec F S1x1024x1024 .f32) (x2 : Vec F S1x1x1024 .f32) (xs : Vec F S1024x1024 .f32) (y : S1024x1024.Idx) :
    ∃ pc ∈ (run0_last c i arg3 harg3 arg4 harg4 arg5 harg5 arg6 harg6 arg7 harg7 hc0 hc1 x0 x1 x2 xs).1, y ∈ pc.1.set :=
  View.cover_of_tiledL _ S1024x1024.size (by sl_kernel_rfl) y

/-- At the first tile the accumulator ends as the product added to zero. -/
theorem sc0_first_eq (hc0 : first0 i) (hc1 : ¬last0 i) (x0 : Vec F S1024x1024 .f32) (x1 : Vec F S1x1024x1024 .f32) :
    VS0.read (Elt F) (VS0.writes (Elt F) VS0.junk (run0_first c i arg3 harg3 arg4 harg4 arg5 harg5 arg6 harg6 arg7 harg7 hc0 hc1 x0 x1).1) = k0_pay2 x0 x1 (k0_pay1 (F := F)) := by
  rw [View.read_writes_eq_canon _ _ _ (scover0_first c i arg3 harg3 arg4 harg4 arg5 harg5 arg6 harg6 arg7 harg7 hc0 hc1 x0 x1)]
  unfold run0_first
  dsimp only
  sl_unfold_words
  rw [View.canon_cons_unit_zero (S := S1024x1024) hz2]
  simp only [View.readAt_eq_ld, harg3.read_unread, harg4.read_unread, View.ld_unit_zero (S := S1024x1024) hz2, View.ld_unit_zero (S := S1x1024x1024) hz3, View.readCov_unit_zero (S := S1024x1024) _ hz2]

/-- At a tile in between it ends as the product added to what it held. -/
theorem sc0_mid_eq (hc0 : ¬first0 i) (hc1 : ¬last0 i) (x0 : Vec F S1024x1024 .f32) (x1 : Vec F S1x1024x1024 .f32) (xs : Vec F S1024x1024 .f32) :
    VS0.read (Elt F) (VS0.writes (Elt F) VS0.junk (run0_mid c i arg3 harg3 arg4 harg4 arg5 harg5 arg6 harg6 arg7 harg7 hc0 hc1 x0 x1 xs).1) = k0_pay2 x0 x1 xs := by
  rw [View.read_writes_eq_canon _ _ _ (scover0_mid c i arg3 harg3 arg4 harg4 arg5 harg5 arg6 harg6 arg7 harg7 hc0 hc1 x0 x1 xs)]
  unfold run0_mid
  dsimp only
  sl_unfold_words
  rw [View.canon_unit_zero (S := S1024x1024) hz2]
  simp only [View.readAt_eq_ld, harg3.read_unread, harg4.read_unread, harg7.read_unread, View.ld_unit_zero (S := S1024x1024) hz2, View.ld_unit_zero (S := S1x1024x1024) hz3]

/-- At the last tile the same, -/
theorem sc0_last_eq (hc0 : ¬first0 i) (hc1 : last0 i) (x0 : Vec F S1024x1024 .f32) (x1 : Vec F S1x1024x1024 .f32) (x2 : Vec F S1x1x1024 .f32) (xs : Vec F S1024x1024 .f32) :
    VS0.read (Elt F) (VS0.writes (Elt F) VS0.junk (run0_last c i arg3 harg3 arg4 harg4 arg5 harg5 arg6 harg6 arg7 harg7 hc0 hc1 x0 x1 x2 xs).2.1) = k0_pay2 x0 x1 xs := by
  rw [View.read_writes_eq_canon _ _ _ (scover0_last c i arg3 harg3 arg4 harg4 arg5 harg5 arg6 harg6 arg7 harg7 hc0 hc1 x0 x1 x2 xs)]
  unfold run0_last
  dsimp only
  sl_unfold_words
  rw [View.canon_unit_zero (S := S1024x1024) hz2]
  simp only [View.readAt_eq_ld, harg3.read_unread, harg4.read_unread, harg7.read_unread, View.ld_unit_zero (S := S1024x1024) hz2, View.ld_unit_zero (S := S1x1024x1024) hz3]

/-- and the output tile's buffer ends as that accumulator with the bias row added to every row. -/
theorem out0_last_eq (hc0 : ¬first0 i) (hc1 : last0 i) (x0 : Vec F S1024x1024 .f32) (x1 : Vec F S1x1024x1024 .f32) (x2 : Vec F S1x1x1024 .f32) (xs : Vec F S1024x1024 .f32) :
    VO0.read (Elt F) (VO0.writes (Elt F) VO0.junk (run0_last c i arg3 harg3 arg4 harg4 arg5 harg5 arg6 harg6 arg7 harg7 hc0 hc1 x0 x1 x2 xs).1) = k0_pay3 x2 (k0_pay2 x0 x1 xs) := by
  rw [View.read_writes_eq_canon _ _ _ (ocover0_last c i arg3 harg3 arg4 harg4 arg5 harg5 arg6 harg6 arg7 harg7 hc0 hc1 x0 x1 x2 xs)]
  unfold run0_last
  dsimp only
  sl_unfold_words
  rw [View.canon_unit_zero (S := S1024x1024) hz2]
  simp only [View.readAt_eq_ld, harg3.read_unread, harg4.read_unread, harg5.read_unread, harg7.read_unread, View.ld_unit_zero (S := S1024x1024) hz2, View.ld_unit_zero (S := S1x1024x1024) hz3, View.ld_unit_zero (S := S1x1x1024) hz3, View.readCov_unit_zero (S := S1024x1024) _ hz2]

end Cases

/-! ## The accumulator and the proof data over the grid -/

section Data
variable (V : (c : Dev nD) → (b : Ref sig .tc) → Buf (Elt F) ((c : Thread nD τ).loc b))

/-- THE ACCUMULATION: what the accumulator holds after the body at point `n`. -/
def acc0 (c : Dev nD) : (n : ℕ) → n < cfg0.N → Vec F S1024x1024 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At the first tile of a reduction: the product added to zero. -/
theorem acc0_first (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h

/-- At any other tile: the product added to what the point before left. -/
theorem acc0_next (c : Dev nD) (t : Fin cfg0.N) (h : ¬t.val % 4 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers the kernel does not use: the second kernel's staging buffers and accumulator, each at anything. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq' (c : Dev nD) :
    (Pipeline.ΦA spec0 c : sProp 𝕄) = iprop(iprop((∃ d, owns (c : Thread nD τ) scM0 fullShare d) ∗ rest0 c) ∗ (∃ r, prngReg c r)) :=
  PhiA0_eq c

/-- The region's invariant before position `n`: before the first point the accumulator holds anything; afterwards it
    holds what the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-- The proof data of the grouped-product pipeline on core `c`: the arrays as the region finds them; after the body
    each input's buffer at its block, the output's at the accumulator plus the bias row; the invariant above; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 2 t) (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (iblk0 V c 2 t) (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position in its reduction selects the
    run; the invariant hands the body the accumulator at what the point before left (at anything where the reduction
    starts) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 64 := lt_of_lt_of_eq t.isLt (show cfg0.N = 64 from N_0)
  by_cases h0 : t.val % 4 = 0
  · have h1 : ¬t.val % 4 = 3 := by omega
    have hc0 : first0 (grid0.coords t) := (hfirst0 t).mpr h0
    have hc1 : ¬last0 (grid0.coords t) := fun h => h1 ((hlast0 t).mp h)
    rw [Dat.leavesExact_idle (dat0 V c) 3 t (idle0_3 t hc1) (noFlush0_3 t hc1)]
    rw [acc0_first V c t h0]
    by_cases hz : t.val = 0
    · rw [PhiS0_castSucc V c t, PhiS0_zero V c _ _ hz, PhiA0_eq']
      iintro ⟨⟨⟨HS, Hr⟩, Hg⟩, Ho, ⟨%d0, H0⟩, ⟨%d1, H1⟩, ⟨%d2, H2⟩, ⟨%d3, H3⟩⟩
      iapply ((run0_first c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t)).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro
            exact (View.read_writes_of_cover _ _ _ _ _ (scover0_first c _ _ _ _ _ _ _ _ _ _ _ hc0 hc1 _ _)).trans (sc0_first_eq c _ _ _ _ _ _ _ _ _ _ _ hc0 hc1 _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((run0_first c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t)).2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro
            exact (View.read_writes_of_cover _ _ _ _ _ (scover0_first c _ _ _ _ _ _ _ _ _ _ _ hc0 hc1 _ _)).trans (sc0_first_eq c _ _ _ _ _ _ _ _ _ _ _ hc0 hc1 _ _)
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬first0 (grid0.coords t) := fun h => h0 ((hfirst0 t).mp h)
    rw [acc0_next V c t h0]
    rw [PhiS0_castSucc V c t, PhiS0_pos V c _ _ hz]
    by_cases h1 : t.val % 4 = 3
    · have hc1 : last0 (grid0.coords t) := (hlast0 t).mpr h1
      rw [show (dat0 V c).leavesExact 3 t = owns (c : Thread nD τ) (ms0_3 t) fullShare ((dat0 V c).after 3 t) from by
        unfold Dat.leavesExact; rw [live0_3 t hc1], after0_3, acc0_next V c t h0]
      iintro ⟨⟨⟨HS, Hr⟩, Hg⟩, Ho, ⟨%d0, H0⟩, ⟨%d1, H1⟩, ⟨%d2, H2⟩, ⟨%d3, H3⟩⟩
      iapply ((run0_last c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro
            exact (View.read_writes_of_cover _ _ _ _ _ (scover0_last c _ _ _ _ _ _ _ _ _ _ _ hc0 hc1 _ _ _ _)).trans (sc0_last_eq c _ _ _ _ _ _ _ _ _ _ _ hc0 hc1 _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_of_cover _ _ _ _ _ (ocover0_last c _ _ _ _ _ _ _ _ _ _ _ hc0 hc1 _ _ _ _)).trans (out0_last_eq c _ _ _ _ _ _ _ _ _ _ _ hc0 hc1 _ _ _ _)
    · have hc1 : ¬last0 (grid0.coords t) := fun h => h1 ((hlast0 t).mp h)
      rw [Dat.leavesExact_idle (dat0 V c) 3 t (idle0_3 t hc1) (noFlush0_3 t hc1)]
      iintro ⟨⟨⟨HS, Hr⟩, Hg⟩, Ho, ⟨%d0, H0⟩, ⟨%d1, H1⟩, ⟨%d2, H2⟩, ⟨%d3, H3⟩⟩
      iapply ((run0_mid c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro
            exact (View.read_writes_of_cover _ _ _ _ _ (scover0_mid c _ _ _ _ _ _ _ _ _ _ _ hc0 hc1 _ _ _)).trans (sc0_mid_eq c _ _ _ _ _ _ _ _ _ _ _ hc0 hc1 _ _ _)
          iexact Hr
        iexact Hg
      isplitl [Ho]; · iexact Ho
      isplitl [H0]; · iexact H0
      isplitl [H1]; · iexact H1
      isplitl [H2]; · iexact H2
      iexists _; iexact H3

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq']
  iintro ⟨⟨HS, Hr⟩, Hg⟩
  isplitl [HS Hr]
  · isplitl [HS]; · iexists _; iexact HS
    iexact Hr
  iexact Hg

end Data

end Cert.Kernel.Run

end
-- ==== Proof.Kernel.Body1.lean ====
/-
  The combination kernel's body at one grid point, in each of the three positions a point can have in its reduction
  over the contracted axis. In every position the body adds to the accumulator the product of the point's tile of
  combine weights with the point's tile of the intermediate matrix. At the FIRST tile of a reduction it clears the
  accumulator beforehand; at the LAST tile it then copies the accumulator into the output tile; in BETWEEN it does
  neither, and the output tile's buffer is handed back as it was found. Each run leaves the accumulator (and at the
  last tile the output buffer) as a list of stored pieces, which the run itself determines.
-/
import proofs.«133026_j71571335020920_1_alg».proof.Proof.Kernel.Conds

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First tile of a reduction (not the last): the accumulator may hold anything. -/
noncomputable def run1_first (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (hc0 : first1 i) (hc1 : ¬last1 i)
    (x0 : Vec F S512x2048 .f32) (x1 : Vec F S2048x1024 .bf16) :
    { LS : List (View.Piece (Elt F) S512x1024 .f32) //
      ∀ (xi2 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__combine_kernel i arg2 harg2 arg3 harg3 arg4 harg4 arg5 harg5) K } := by
  refine ⟨?_, fun xi2 E K => ?run⟩
  case run =>
    simp only [cc1__combine_kernel_eq_skeleton]; unfold cc1__combine_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A tile in between: the accumulator holds what the point before left. -/
noncomputable def run1_mid (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (hc0 : ¬first1 i) (hc1 : ¬last1 i)
    (x0 : Vec F S512x2048 .f32) (x1 : Vec F S2048x1024 .bf16) (xs : Vec F S512x1024 .f32) :
    { LS : List (View.Piece (Elt F) S512x1024 .f32) //
      ∀ (xi2 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__combine_kernel i arg2 harg2 arg3 harg3 arg4 harg4 arg5 harg5) K } := by
  refine ⟨?_, fun xi2 E K => ?run⟩
  case run =>
    simp only [cc1__combine_kernel_eq_skeleton]; unfold cc1__combine_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Last tile of a reduction (not the first): the output tile's buffer may hold anything and ends with its pieces stored. -/
noncomputable def run1_last (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (hc0 : ¬first1 i) (hc1 : last1 i)
    (x0 : Vec F S512x2048 .f32) (x1 : Vec F S2048x1024 .bf16) (xs : Vec F S512x1024 .f32) :
    Σ' (L2 : List (View.Piece (Elt F) S512x1024 .f32)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__combine_kernel i arg2 harg2 arg3 harg3 arg4 harg4 arg5 harg5) K } := by
  refine ⟨?_, ?_, fun E K => ?run⟩
  case run =>
    simp only [cc1__combine_kernel_eq_skeleton]; unfold cc1__combine_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Run

end
-- ==== Proof.Kernel.Region1.lean ====
/-
  The combination kernel over its whole grid.

  The accumulator after point t is defined by recursion on t: at the first tile of a reduction (t % 8 = 0) it is the
  product of the point's two tiles added to zero, at any other tile it is that product added to what point t - 1
  left. The output tile's buffer after the last tile of a reduction is that accumulator. The region's invariant
  carries the accumulator from point to point at exactly these contents (before the first point it holds anything),
  beside the core's other scoped buffers and the generator register, which the body does not touch. With this the
  body obligation holds at every point: a case split on the point's position in its reduction, each case one of the
  three runs of the body.
-/
import proofs.«133026_j71571335020920_1_alg».proof.Proof.Kernel.Body1
import Idealize.ShloMosaic.Lib.Pipeline.Value

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator as a view, through which its contents are stated. -/
abbrev VS1 : View sig .tc .vmem S512x1024 .f32 := scM1.view
/-- One staging buffer of the output window, through which its contents are stated. -/
abbrev VO1 : View sig .tc .vmem S512x1024 .f32 := (Memref.whole cc1_stg2_0 : Memref sig .tc .vmem S512x1024 .f32).view

theorem hz2' : (![0, 0] : Fin 2 → Nat) = fun _ => 0 := by
  funext a; match a with | ⟨0, _⟩ => rfl | ⟨1, _⟩ => rfl

/-! ## What each case's stored pieces amount to -/

section Cases
variable (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole)

theorem scover1_first (hc0 : first1 i) (hc1 : ¬last1 i) (x0 : Vec F S512x2048 .f32) (x1 : Vec F S2048x1024 .bf16) (y : S512x1024.Idx) :
    ∃ pc ∈ (run1_first c i arg2 harg2 arg3 harg3 arg4 harg4 arg5 harg5 hc0 hc1 x0 x1).1, y ∈ pc.1.set :=
  View.cover_of_tiledL _ S512x1024.size (by sl_kernel_rfl) y
theorem scover1_mid (hc0 : ¬first1 i) (hc1 : ¬last1 i) (x0 : Vec F S512x2048 .f32) (x1 : Vec F S2048x1024 .bf16) (xs : Vec F S512x1024 .f32) (y : S512x1024.Idx) :
    ∃ pc ∈ (run1_mid c i arg2 harg2 arg3 harg3 arg4 harg4 arg5 harg5 hc0 hc1 x0 x1 xs).1, y ∈ pc.1.set :=
  View.cover_of_tiledL _ S512x1024.size (by sl_kernel_rfl) y
theorem scover1_last (hc0 : ¬first1 i) (hc1 : last1 i) (x0 : Vec F S512x2048 .f32) (x1 : Vec F S2048x1024 .bf16) (xs : Vec F S512x1024 .f32) (y : S512x1024.Idx) :
    ∃ pc ∈ (run1_last c i arg2 harg2 arg3 harg3 arg4 harg4 arg5 harg5 hc0 hc1 x0 x1 xs).2.1, y ∈ pc.1.set :=
  View.cover_of_tiledL _ S512x1024.size (by sl_kernel_rfl) y
theorem ocover1_last (hc0 : ¬first1 i) (hc1 : last1 i) (x0 : Vec F S512x2048 .f32) (x1 : Vec F S2048x1024 .bf16) (xs : Vec F S512x1024 .f32) (y : S512x1024.Idx) :
    ∃ pc ∈ (run1_last c i arg2 harg2 arg3 harg3 arg4 harg4 arg5 harg5 hc0 hc1 x0 x1 xs).1, y ∈ pc.1.set :=
  View.cover_of_tiledL _ S512x1024.size (by sl_kernel_rfl) y

/-- At the first tile the accumulator ends as the product added to zero. -/
theorem sc1_first_eq (hc0 : first1 i) (hc1 : ¬last1 i) (x0 : Vec F S512x2048 .f32) (x1 : Vec F S2048x1024 .bf16) :
    VS1.read (Elt F) (VS1.writes (Elt F) VS1.junk (run1_first c i arg2 harg2 arg3 harg3 arg4 harg4 arg5 harg5 hc0 hc1 x0 x1).1) = k1_pay2 x0 x1 (k1_pay1 (F := F)) := by
  rw [View.read_writes_eq_canon _ _ _ (scover1_first c i arg2 harg2 arg3 harg3 arg4 harg4 arg5 harg5 hc0 hc1 x0 x1)]
  unfold run1_first
  dsimp only
  sl_unfold_words
  rw [View.canon_cons_unit_zero (S := S512x1024) hz2']
  simp only [View.readAt_eq_ld, harg2.read_unread, harg3.read_unread, View.ld_unit_zero (S := S512x2048) hz2', View.ld_unit_zero (S := S2048x1024) hz2', View.ld_unit_zero (S := S512x1024) hz2', View.readCov_unit_zero (S := S512x1024) _ hz2']

/-- At a tile in between it ends as the product added to what it held. -/
theorem sc1_mid_eq (hc0 : ¬first1 i) (hc1 : ¬last1 i) (x0 : Vec F S512x2048 .f32) (x1 : Vec F S2048x1024 .bf16) (xs : Vec F S512x1024 .f32) :
    VS1.read (Elt F) (VS1.writes (Elt F) VS1.junk (run1_mid c i arg2 harg2 arg3 harg3 arg4 harg4 arg5 harg5 hc0 hc1 x0 x1 xs).1) = k1_pay2 x0 x1 xs := by
  rw [View.read_writes_eq_canon _ _ _ (scover1_mid c i arg2 harg2 arg3 harg3 arg4 harg4 arg5 harg5 hc0 hc1 x0 x1 xs)]
  unfold run1_mid
  dsimp only
  sl_unfold_words
  rw [View.canon_unit_zero (S := S512x1024) hz2']
  simp only [View.readAt_eq_ld, harg2.read_unread, harg3.read_unread, harg5.read_unread, View.ld_unit_zero (S := S512x2048) hz2', View.ld_unit_zero (S := S2048x1024) hz2', View.ld_unit_zero (S := S512x1024) hz2']

/-- At the last tile the same, -/
theorem sc1_last_eq (hc0 : ¬first1 i) (hc1 : last1 i) (x0 : Vec F S512x2048 .f32) (x1 : Vec F S2048x1024 .bf16) (xs : Vec F S512x1024 .f32) :
    VS1.read (Elt F) (VS1.writes (Elt F) VS1.junk (run1_last c i arg2 harg2 arg3 harg3 arg4 harg4 arg5 harg5 hc0 hc1 x0 x1 xs).2.1) = k1_pay2 x0 x1 xs := by
  rw [View.read_writes_eq_canon _ _ _ (scover1_last c i arg2 harg2 arg3 harg3 arg4 harg4 arg5 harg5 hc0 hc1 x0 x1 xs)]
  unfold run1_last
  dsimp only
  sl_unfold_words
  rw [View.canon_unit_zero (S := S512x1024) hz2']
  simp only [View.readAt_eq_ld, harg2.read_unread, harg3.read_unread, harg5.read_unread, View.ld_unit_zero (S := S512x2048) hz2', View.ld_unit_zero (S := S2048x1024) hz2', View.ld_unit_zero (S := S512x1024) hz2']

/-- and the output tile's buffer ends as a copy of that accumulator. -/
theorem out1_last_eq (hc0 : ¬first1 i) (hc1 : last1 i) (x0 : Vec F S512x2048 .f32) (x1 : Vec F S2048x1024 .bf16) (xs : Vec F S512x1024 .f32) :
    VO1.read (Elt F) (VO1.writes (Elt F) VO1.junk (run1_last c i arg2 harg2 arg3 harg3 arg4 harg4 arg5 harg5 hc0 hc1 x0 x1 xs).1) = k1_pay2 x0 x1 xs := by
  rw [View.read_writes_eq_canon _ _ _ (ocover1_last c i arg2 harg2 arg3 harg3 arg4 harg4 arg5 harg5 hc0 hc1 x0 x1 xs)]
  unfold run1_last
  dsimp only
  sl_unfold_words
  rw [View.canon_unit_zero (S := S512x1024) hz2']
  simp only [View.readAt_eq_ld, harg2.read_unread, harg3.read_unread, harg5.read_unread, View.ld_unit_zero (S := S512x2048) hz2', View.ld_unit_zero (S := S2048x1024) hz2', View.ld_unit_zero (S := S512x1024) hz2', View.readCov_unit_zero (S := S512x1024) _ hz2']

end Cases

/-! ## The accumulator and the proof data over the grid -/

section Data
variable (V : (c : Dev nD) → (b : Ref sig .tc) → Buf (Elt F) ((c : Thread nD τ).loc b))

/-- THE ACCUMULATION: what the accumulator holds after the body at point `n`. -/
def acc1 (c : Dev nD) : (n : ℕ) → n < cfg1.N → Vec F S512x1024 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At the first tile of a reduction: the product added to zero. -/
theorem acc1_first (c : Dev nD) (t : Fin cfg1.N) (h : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h

/-- At any other tile: the product added to what the point before left. -/
theorem acc1_next (c : Dev nD) (t : Fin cfg1.N) (h : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point the accumulator holds anything; afterwards it
    holds what the point before left; the first kernel's scoped buffers, which this kernel does not use, at anything. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare (acc1 V c (n - 1) (by omega))) ∗ (∃ r, prngReg c r)) := by
  cases n with
  | zero => exact absurd rfl hz
  | succ n => rfl

/-- The proof data of the combination pipeline on core `c`: the arrays as the region finds them; after the body each
    input's buffer at its block, the output's at the accumulator; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's position in its reduction selects the
    run; the invariant hands the body the accumulator at what the point before left (at anything where the reduction
    starts) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 128 := lt_of_lt_of_eq t.isLt (show cfg1.N = 128 from N_1)
  by_cases h0 : t.val % 8 = 0
  · have h1 : ¬t.val % 8 = 7 := by omega
    have hc0 : first1 (grid1.coords t) := (hfirst1 t).mpr h0
    have hc1 : ¬last1 (grid1.coords t) := fun h => h1 ((hlast1 t).mp h)
    rw [Dat.leavesExact_idle (dat1 V c) 2 t (idle1_2 t hc1) (noFlush1_2 t hc1)]
    rw [acc1_first V c t h0]
    by_cases hz : t.val = 0
    · rw [PhiS1_castSucc V c t, PhiS1_zero V c _ _ hz, PhiA1_eq]
      iintro ⟨⟨⟨B1, B2, B3, B4, B5, B6, B7, B8, B9, HS⟩, Hg⟩, Ho, ⟨%d0, H0⟩, ⟨%d1, H1⟩, ⟨%d2, H2⟩⟩
      iapply ((run1_first c (grid1.coords t) (ms1_0 t) (hs1_0 t) (ms1_1 t) (hs1_1 t) (ms1_2 t) (hs1_2 t) scM1 (Memref.isWhole_whole _) hc0 hc1 (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [B1 B2 B3 B4 B5 B6 B7 B8 B9 HS Hg]
      · isplitl [B1 B2 B3 B4 B5 B6 B7 B8 B9 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          unfold owns; iexists _; isplitr
          swap; · iexact HS
          ipureintro
          exact (View.read_writes_of_cover _ _ _ _ _ (scover1_first c _ _ _ _ _ _ _ _ _ hc0 hc1 _ _)).trans (sc1_first_eq c _ _ _ _ _ _ _ _ _ hc0 hc1 _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨B1, B2, B3, B4, B5, B6, B7, B8, B9, HS⟩, Hg⟩, Ho, ⟨%d0, H0⟩, ⟨%d1, H1⟩, ⟨%d2, H2⟩⟩
      iapply ((run1_first c (grid1.coords t) (ms1_0 t) (hs1_0 t) (ms1_1 t) (hs1_1 t) (ms1_2 t) (hs1_2 t) scM1 (Memref.isWhole_whole _) hc0 hc1 (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [B1 B2 B3 B4 B5 B6 B7 B8 B9 HS Hg]
      · isplitl [B1 B2 B3 B4 B5 B6 B7 B8 B9 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          unfold owns; iexists _; isplitr
          swap; · iexact HS
          ipureintro
          exact (View.read_writes_of_cover _ _ _ _ _ (scover1_first c _ _ _ _ _ _ _ _ _ hc0 hc1 _ _)).trans (sc1_first_eq c _ _ _ _ _ _ _ _ _ hc0 hc1 _ _)
        iexact Hg
      isplitl [Ho]; · iexact Ho
      isplitl [H0]; · iexact H0
      isplitl [H1]; · iexact H1
      iexists _; iexact H2
  · have hz : t.val ≠ 0 := fun h => h0 (by rw [h])
    have hc0 : ¬first1 (grid1.coords t) := fun h => h0 ((hfirst1 t).mp h)
    rw [acc1_next V c t h0]
    rw [PhiS1_castSucc V c t, PhiS1_pos V c _ _ hz]
    by_cases h1 : t.val % 8 = 7
    · have hc1 : last1 (grid1.coords t) := (hlast1 t).mpr h1
      rw [show (dat1 V c).leavesExact 2 t = owns (c : Thread nD τ) (ms1_2 t) fullShare ((dat1 V c).after 2 t) from by
        unfold Dat.leavesExact; rw [live1_2 t hc1], after1_2, acc1_next V c t h0]
      iintro ⟨⟨⟨B1, B2, B3, B4, B5, B6, B7, B8, B9, HS⟩, Hg⟩, Ho, ⟨%d0, H0⟩, ⟨%d1, H1⟩, ⟨%d2, H2⟩⟩
      iapply ((run1_last c (grid1.coords t) (ms1_0 t) (hs1_0 t) (ms1_1 t) (hs1_1 t) (ms1_2 t) (hs1_2 t) scM1 (Memref.isWhole_whole _) hc0 hc1 (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [B1 B2 B3 B4 B5 B6 B7 B8 B9 HS Hg]
      · isplitl [B1 B2 B3 B4 B5 B6 B7 B8 B9 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          unfold owns; iexists _; isplitr
          swap; · iexact HS
          ipureintro
          exact (View.read_writes_of_cover _ _ _ _ _ (scover1_last c _ _ _ _ _ _ _ _ _ hc0 hc1 _ _ _)).trans (sc1_last_eq c _ _ _ _ _ _ _ _ _ hc0 hc1 _ _ _)
        iexact Hg
      isplitl [Ho]; · iexact Ho
      isplitl [H0]; · iexact H0
      isplitl [H1]; · iexact H1
      unfold owns; iexists _; isplitr
      swap; · iexact H2
      ipureintro
      exact (View.read_writes_of_cover _ _ _ _ _ (ocover1_last c _ _ _ _ _ _ _ _ _ hc0 hc1 _ _ _)).trans (out1_last_eq c _ _ _ _ _ _ _ _ _ hc0 hc1 _ _ _)
    · have hc1 : ¬last1 (grid1.coords t) := fun h => h1 ((hlast1 t).mp h)
      rw [Dat.leavesExact_idle (dat1 V c) 2 t (idle1_2 t hc1) (noFlush1_2 t hc1)]
      iintro ⟨⟨⟨B1, B2, B3, B4, B5, B6, B7, B8, B9, HS⟩, Hg⟩, Ho, ⟨%d0, H0⟩, ⟨%d1, H1⟩, ⟨%d2, H2⟩⟩
      iapply ((run1_mid c (grid1.coords t) (ms1_0 t) (hs1_0 t) (ms1_1 t) (hs1_1 t) (ms1_2 t) (hs1_2 t) scM1 (Memref.isWhole_whole _) hc0 hc1 (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [B1 B2 B3 B4 B5 B6 B7 B8 B9 HS Hg]
      · isplitl [B1 B2 B3 B4 B5 B6 B7 B8 B9 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          unfold owns; iexists _; isplitr
          swap; · iexact HS
          ipureintro
          exact (View.read_writes_of_cover _ _ _ _ _ (scover1_mid c _ _ _ _ _ _ _ _ _ hc0 hc1 _ _ _)).trans (sc1_mid_eq c _ _ _ _ _ _ _ _ _ hc0 hc1 _ _ _)
        iexact Hg
      isplitl [Ho]; · iexact Ho
      isplitl [H0]; · iexact H0
      isplitl [H1]; · iexact H1
      iexists _; iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨B1, B2, B3, B4, B5, B6, B7, B8, B9, HS⟩, Hg⟩
  isplitl [B1 B2 B3 B4 B5 B6 B7 B8 B9 HS]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexists _; iexact HS
  iexact Hg

end Data

end Cert.Kernel.Run

end
-- ==== Proof.Kernel.Main.lean ====
/-
  The whole program, from launch to return, with every buffer's contents named at every boundary.

  @main is four items: the grouped-product kernel, a re-layout of the combine weights into a matrix, the
  combination kernel, a re-layout of its result into the output tensor. Between items the core holds every unscoped
  buffer whole. The contents at each boundary are a fold from the launch memory: a kernel region leaves each of its
  windows' arrays at what its write-backs leave (the inputs as entered, the output at the pipeline's final contents)
  and every other buffer as entered; a host stretch leaves what its operations compute. Each region is entered from
  the contents the item before it left, its proof data instantiated at exactly those contents, so the second kernel
  reads the first kernel's output matrix by name. The launch theorem for a list of such items then gives: every
  weakly fair execution terminates, nothing faults, and the final memory holds every unscoped buffer at the last
  boundary's contents. Read at an argument this is the launch contents, since no item writes an argument; read at
  the result it is the re-layout of the second kernel's output matrix.
-/
import proofs.«133026_j71571335020920_1_alg».proof.Proof.Kernel.Region0
import proofs.«133026_j71571335020920_1_alg».proof.Proof.Kernel.Region1
import proofs.«133026_j71571335020920_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev buf0 : Dev nD → Valuation τ sig (Elt F) := fun c b => m (c, b)
/-- The same read at the TensorCore's references: what the first kernel's proof data take. -/
abbrev ent0 : (c : Dev nD) → (b : Ref sig .tc) → Buf (Elt F) ((c : Thread nD τ).loc b) := fun c b => buf0 m c b
/-- After the first kernel: its arrays at what the pipeline leaves, every other buffer as entered. -/
def buf1 (c : Dev nD) : Valuation τ sig (Elt F) :=
  Pipeline.withArrays spec0 c (buf0 m c) fun w => (dat0 (ent0 m) c).arrAt w cfg0.N
theorem buf1_arr (c : Dev nD) (w : Fin cfg0.W) :
    buf1 m c (Proc.devRef .tc (Pipeline.arrRef spec0 w)) = (dat0 (ent0 m) c).arrAt w cfg0.N := by
  unfold buf1; exact Pipeline.withArrays_arr spec0 launch0.win.arr_inj c _ _ w
theorem buf1_of_ne (c : Dev nD) (b : Ref sig .tc) (hb : ∀ w, Pipeline.arrRef spec0 w ≠ b) :
    buf1 m c (Proc.devRef .tc b) = buf0 m c (Proc.devRef .tc b) := by
  unfold buf1; exact Pipeline.withArrays_of_ne spec0 c _ _ b hb
abbrev exit0 : (c : Dev nD) → (b : Ref sig .tc) → Buf (Elt F) ((c : Thread nD τ).loc b) := fun c b => buf1 m c b
theorem hF0 (c : Dev nD) (w : Fin cfg0.W) : (dat0 (ent0 m) c).arrAt w cfg0.N = exit0 m c (Pipeline.arrRef spec0 w) :=
  (buf1_arr m c w).symm
theorem hrest0 (c : Dev nD) : ∀ b, b ∉ Finset.univ.image (Pipeline.arrRef spec0) → exit0 m c b = ent0 m c b :=
  fun b hb => buf1_of_ne m c b fun w e => hb (Finset.mem_image.mpr ⟨w, Finset.mem_univ _, e⟩)

/-- After the combine weights' re-layout. -/
abbrev buf2 : Dev nD → Valuation τ sig (Elt F) := fun c => StableHlo.after hostOps1 (buf1 m c)
abbrev ent1 : (c : Dev nD) → (b : Ref sig .tc) → Buf (Elt F) ((c : Thread nD τ).loc b) := fun c b => buf2 m c b
/-- After the second kernel. -/
def buf3 (c : Dev nD) : Valuation τ sig (Elt F) :=
  Pipeline.withArrays spec1 c (buf2 m c) fun w => (dat1 (ent1 m) c).arrAt w cfg1.N
theorem buf3_arr (c : Dev nD) (w : Fin cfg1.W) :
    buf3 m c (Proc.devRef .tc (Pipeline.arrRef spec1 w)) = (dat1 (ent1 m) c).arrAt w cfg1.N := by
  unfold buf3; exact Pipeline.withArrays_arr spec1 launch1.win.arr_inj c _ _ w
theorem buf3_of_ne (c : Dev nD) (b : Ref sig .tc) (hb : ∀ w, Pipeline.arrRef spec1 w ≠ b) :
    buf3 m c (Proc.devRef .tc b) = buf2 m c (Proc.devRef .tc b) := by
  unfold buf3; exact Pipeline.withArrays_of_ne spec1 c _ _ b hb
abbrev exit1 : (c : Dev nD) → (b : Ref sig .tc) → Buf (Elt F) ((c : Thread nD τ).loc b) := fun c b => buf3 m c b
theorem hF1 (c : Dev nD) (w : Fin cfg1.W) : (dat1 (ent1 m) c).arrAt w cfg1.N = exit1 m c (Pipeline.arrRef spec1 w) :=
  (buf3_arr m c w).symm
theorem hrest1 (c : Dev nD) : ∀ b, b ∉ Finset.univ.image (Pipeline.arrRef spec1) → exit1 m c b = ent1 m c b :=
  fun b hb => buf3_of_ne m c b fun w e => hb (Finset.mem_image.mpr ⟨w, Finset.mem_univ _, e⟩)
/-- After the result's re-layout: the contents at the return. -/
abbrev buf4 : Dev nD → Valuation τ sig (Elt F) := fun c => StableHlo.after hostOps2 (buf3 m c)

/-! ## No item writes an argument; the result is the last re-layout -/

theorem buf2_of (c : Dev nD) (r : Ref sig .tc) (h : r ∉ hostOps1_W) : buf2 m c r = buf1 m c r :=
  StableHlo.after_of_writes_sub hostOps1 _ hostOps1_writes h
theorem buf4_of (c : Dev nD) (r : Ref sig .tc) (h : r ∉ hostOps2_W) : buf4 m c r = buf3 m c r :=
  StableHlo.after_of_writes_sub hostOps2 _ hostOps2_writes h

theorem buf4_main_arg0 (c : Dev nD) : buf4 m c (Proc.devRef .tc main_arg0) = m ((c : Thread nD τ).loc main_arg0) :=
  calc buf4 m c (Proc.devRef .tc main_arg0)
    _ = buf3 m c (Proc.devRef .tc main_arg0) := buf4_of m c main_arg0 (by decide)
    _ = buf2 m c (Proc.devRef .tc main_arg0) := buf3_of_ne m c main_arg0 (by decide)
    _ = buf1 m c (Proc.devRef .tc main_arg0) := buf2_of m c main_arg0 (by decide)
    _ = buf0 m c (Proc.devRef .tc main_arg0) := (buf1_arr m c 0).trans (((dat0 (ent0 m) c).arrAt_in 0 rfl _).trans (A_eq0 (ent0 m) c 0))
    _ = m ((c : Thread nD τ).loc main_arg0) := rfl
theorem buf4_main_arg1 (c : Dev nD) : buf4 m c (Proc.devRef .tc main_arg1) = m ((c : Thread nD τ).loc main_arg1) :=
  calc buf4 m c (Proc.devRef .tc main_arg1)
    _ = buf3 m c (Proc.devRef .tc main_arg1) := buf4_of m c main_arg1 (by decide)
    _ = buf2 m c (Proc.devRef .tc main_arg1) := buf3_of_ne m c main_arg1 (by decide)
    _ = buf1 m c (Proc.devRef .tc main_arg1) := buf2_of m c main_arg1 (by decide)
    _ = buf0 m c (Proc.devRef .tc main_arg1) := buf1_of_ne m c main_arg1 (by decide)
    _ = m ((c : Thread nD τ).loc main_arg1) := rfl
theorem buf4_main_arg2 (c : Dev nD) : buf4 m c (Proc.devRef .tc main_arg2) = m ((c : Thread nD τ).loc main_arg2) :=
  calc buf4 m c (Proc.devRef .tc main_arg2)
    _ = buf3 m c (Proc.devRef .tc main_arg2) := buf4_of m c main_arg2 (by decide)
    _ = buf2 m c (Proc.devRef .tc main_arg2) := buf3_of_ne m c main_arg2 (by decide)
    _ = buf1 m c (Proc.devRef .tc main_arg2) := buf2_of m c main_arg2 (by decide)
    _ = buf0 m c (Proc.devRef .tc main_arg2) := (buf1_arr m c 1).trans (((dat0 (ent0 m) c).arrAt_in 1 rfl _).trans (A_eq0 (ent0 m) c 1))
    _ = m ((c : Thread nD τ).loc main_arg2) := rfl
theorem buf4_main_arg3 (c : Dev nD) : buf4 m c (Proc.devRef .tc main_arg3) = m ((c : Thread nD τ).loc main_arg3) :=
  calc buf4 m c (Proc.devRef .tc main_arg3)
    _ = buf3 m c (Proc.devRef .tc main_arg3) := buf4_of m c main_arg3 (by decide)
    _ = buf2 m c (Proc.devRef .tc main_arg3) := buf3_of_ne m c main_arg3 (by decide)
    _ = buf1 m c (Proc.devRef .tc main_arg3) := buf2_of m c main_arg3 (by decide)
    _ = buf0 m c (Proc.devRef .tc main_arg3) := (buf1_arr m c 2).trans (((dat0 (ent0 m) c).arrAt_in 2 rfl _).trans (A_eq0 (ent0 m) c 2))
    _ = m ((c : Thread nD τ).loc main_arg3) := rfl

/-- The combine weights as the second kernel finds them: the launch contents re-laid as a matrix. -/
theorem ent1_main_v1 (c : Dev nD) :
    ent1 m c main_v1 = shapeCast S8192x16384 (m ((c : Thread nD τ).loc main_arg1)) shapeCasts_S8192x8x2048_S8192x16384 := by
  show StableHlo.after hostOps1 (buf1 m c) (Proc.devRef .tc main_v1) = _
  after_results
  exact congrArg (fun x => shapeCast S8192x16384 x shapeCasts_S8192x8x2048_S8192x16384) (buf1_of_ne m c main_arg1 (by decide))
/-- The intermediate matrix as the second kernel finds it: what the first kernel's write-backs left. -/
theorem ent1_main_v0 (c : Dev nD) : ent1 m c main_v0 = (dat0 (ent0 m) c).arrAt 3 cfg0.N :=
  (buf2_of m c main_v0 (by decide)).trans (buf1_arr m c 3)
/-- The result at the return: the second kernel's output matrix re-laid as the output tensor. -/
theorem buf4_main_v3 (c : Dev nD) :
    buf4 m c (Proc.devRef .tc main_v3) = shapeCast S4x2048x1024 ((dat1 (ent1 m) c).arrAt 2 cfg1.N) shapeCasts_S8192x1024_S4x2048x1024 := by
  show StableHlo.after hostOps2 (buf3 m c) (Proc.devRef .tc main_v3) = _
  after_results
  exact congrArg (fun x => shapeCast S4x2048x1024 x shapeCasts_S8192x1024_S4x2048x1024) (buf3_arr m c 2)

/-! ## The proof data family and what rides beside the buffers -/

/-- No pipeline has a prefetched table. -/
abbrev tabs : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) tabs p) c
  | ⟨0, _⟩ => fun c => dat0 (ent0 m) c
  | ⟨1, _⟩ => fun c => dat1 (ent1 m) c
abbrev vnone : Variants := Variants.none
/-- No core owes another anything: no level is assigned. -/
abbrev noLev : GSem nD τ sig → Finset Unit := fun _ => ∅
abbrev lev0 : GSem nD τ sig → Unit → ℕ := fun _ _ => 0
/-- Beside the buffers through every item: the generator register at some state and the core owing nothing. -/
abbrev beside (c : Dev nD) : sProp 𝕄 := iprop((∃ r, prngReg c r) ∗ ∃ W, owes (c : Thread nD τ) (0 : CellTallies nD τ sig Unit) W)
/-- A host stretch as an item, from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vnone noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev lastState (c : Dev nD) : sProp 𝕄 := iprop(StableHlo.held (c : Thread nD τ) (Pipeline.ucRefs τ sig) (buf4 m c) ∗ ∃ r, prngReg c r)

/-! ## The regions as items -/

set_option backward.isDefEq.respectTransparency.types false in
/-- The first kernel's region: entered from the launch contents, left at `buf1`. Its arrays are split out of the
    unscoped buffers and put back at the exit contents; the generator register goes into the invariant and comes back;
    nothing is owed; the kernel has no semaphore of its own. -/
def reg0 : Pipeline.RegionSeg (pcfgs (F := F)) tabs (pdats m) () defs₀ vnone noLev lev0 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ noLev lev0 0 fun _ _ => rfl
  pre c := iprop(StableHlo.held (c : Thread nD τ) (Pipeline.ucRefs τ sig) (buf0 m c) ∗ beside c)
  post c := iprop(StableHlo.held (c : Thread nD τ) (Pipeline.ucRefs τ sig) (buf1 m c) ∗ beside c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (ent0 m) c)
    unfold Pipeline.ΦA
    iintro ⟨Hp, -, Hr⟩
    isplitl [Hr]; · iexact Hr
    iexact Hp
  hout c := by
    rw [Pipeline.ownSems0_none]
    refine BIBase.Entails.trans (hout0 (ent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (ent0 m c) (exit0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered from `buf2`, left at `buf3`. -/
def reg1 : Pipeline.RegionSeg (pcfgs (F := F)) tabs (pdats m) () defs₀ vnone noLev lev0 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ noLev lev0 1 fun _ _ => rfl
  pre c := iprop(StableHlo.held (c : Thread nD τ) (Pipeline.ucRefs τ sig) (buf2 m c) ∗ beside c)
  post c := iprop(StableHlo.held (c : Thread nD τ) (Pipeline.ucRefs τ sig) (buf3 m c) ∗ beside c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (ent1 m) c)
    unfold Pipeline.ΦA
    iintro ⟨Hp, -, Hr⟩
    isplitl [Hr]; · iexact Hr
    iexact Hp
  hout c := by
    rw [Pipeline.ownSems0_none]
    refine BIBase.Entails.trans (hout1 (ent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (ent1 m c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's four items in order. -/
abbrev items : List (Pipeline.Seg (pcfgs (F := F)) tabs (pdats m) () defs₀ vnone noLev lev0) :=
  [ .region (reg0 m),
    .host (hostItem hostOps1 hostOps1_sub hostOps1_fresh (buf1 m)),
    .region (reg1 m),
    .host (hostItem hostOps2 hostOps2_sub hostOps2_fresh (buf3 m)) ]
theorem main_run (c : Dev nD) : main (F := F) c = Pipeline.Seg.run (items m) := (main_chain c).trans (by chain_rfl)

set_option backward.isDefEq.respectTransparency.types false in
/-- THE RUN. From any memory with zero counters every weakly fair execution of @main terminates, nothing faulting,
    and the final memory holds every unscoped buffer of every core at the contents of the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = buf4 m c b) :=
  Pipeline.θ_run_regions_kit (pcfgs (F := F)) tabs (pdats m) () cellOf_inj emb₁ defs₀ vnone noLev lev0 m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (buf0 m c) ∗ beside c)) (Tₙ := lastState m)
    (hch := ⟨fun _ => .rfl, fun _ => .rfl, fun _ => .rfl, fun _ => .rfl, fun c => by
      show iprop(StableHlo.held (c.tc : Thread nD τ) (Pipeline.ucRefs τ sig) (StableHlo.after hostOps2 (buf3 m c)) ∗ beside c) ⊢ _
      iintro ⟨Hh, Hp, HO⟩
      isplitl [Hh Hp]
      · isplitl [Hh]; · iexact Hh
        iexact Hp
      iexact HO⟩)
    (hinit := by
      refine Pipeline.initEach noLev lev0 fun c => ?_
      rw [show unscopedBufs c (fun b => m ((c : Thread nD τ).loc b)) = StableHlo.held (c : Thread nD τ) (Pipeline.ucRefs τ sig) (buf0 m c)
        from Pipeline.unscopedBufs_held c (buf0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = buf4 m c b)
    (hfin := fun c s' => by
      iintro ⟨⟨Hh, -⟩, HSI⟩
      unfold StableHlo.held
      imodintro
      iapply (pointsTo_read_all (Pipeline.ucRefs τ sig) (fun b => (((c : Thread nD τ)).1, b)) (buf4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (buf4_main_arg0 m c),
     (h c _ (mem_uc main_arg1 (by decide))).trans (buf4_main_arg1 m c),
     (h c _ (mem_uc main_arg2 (by decide))).trans (buf4_main_arg2 m c),
     (h c _ (mem_uc main_arg3 (by decide))).trans (buf4_main_arg3 m c)⟩) (run_all m ρ)

end Cert.Kernel.Run

end
-- ==== Proof.KernelIdeal.Conds.lean ====
/-
  The two matrix-product kernels, point by point: where each sits in its reduction.

  The first kernel's grid is 8 experts × 2 row tiles × 4 tiles of the contracted axis, the last coordinate moving
  fastest, so point t is the tile (t / 8, (t / 4) % 2, t % 4): the accumulator is cleared where t % 4 = 0 and the
  finished row tile is written out, with the bias added, where t % 4 = 3. The second kernel's grid is 16 row tiles
  × 8 tiles of the contracted axis: cleared where t % 8 = 0, written out where t % 8 = 7. Both facts are decided
  over the grids. The output window is idle, and not written back, at every point that is not the last of its
  reduction; the input windows are never idle, so each holds its block of the array at every point.
-/
import proofs.«133026_j71571335020920_1_alg».proof.Proof.Gen.KernelIdeal.Launch
import proofs.«133026_j71571335020920_1_alg».proof.Proof.Gen.KernelIdeal.Skeleton
import proofs.«133026_j71571335020920_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first kernel (the grouped product) -/

/-- The accumulator is cleared at this point: the contracted-axis coordinate is 0. -/
abbrev first0 (i : grid0.Coords) : Prop := (Scalar.cmpi .ne (Scalar.extui (Scalar.cmpi .eq (BitVec.ofNat 32 (i 2).val) 0#32)) 0#32) = 1#1
theorem hfirst0 : ∀ t : Fin cfg0.N, first0 (grid0.coords t) ↔ t.val % 4 = 0 :=
  (by decide +kernel : ∀ t : Fin grid0.N, first0 (grid0.coords t) ↔ t.val % 4 = 0)
/-- The row tile is finished at this point: the contracted-axis coordinate is 3. -/
abbrev last0 (i : grid0.Coords) : Prop := k0_cond2 i = 1#1
theorem hlast0 : ∀ t : Fin cfg0.N, last0 (grid0.coords t) ↔ t.val % 4 = 3 :=
  (by decide +kernel : ∀ t : Fin grid0.N, last0 (grid0.coords t) ↔ t.val % 4 = 3)

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
/-- Away from the last tile of a reduction the output window is idle and is not written back. -/
theorem idle0_3 : ∀ t : Fin cfg0.N, ¬last0 (grid0.coords t) → cfg0.idle 3 (grid0.coords t) = true := by decide +kernel
theorem noFlush0_3 : ∀ t : Fin cfg0.N, ¬last0 (grid0.coords t) → (cfg0.win 3).flush t = false := by decide +kernel
theorem live0_3 : ∀ t : Fin cfg0.N, last0 (grid0.coords t) → cfg0.idle 3 (grid0.coords t) = false := by decide +kernel

/-- Each window's current staging memref at point `t`, as the pipeline passes it to the body. -/
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S1024x1024 .f32 := Memref.whole cc0_scratch0

/-! ## The second kernel (the combination) -/

abbrev first1 (i : grid1.Coords) : Prop := (Scalar.cmpi .ne (Scalar.extui (Scalar.cmpi .eq (BitVec.ofNat 32 (i 1).val) 0#32)) 0#32) = 1#1
theorem hfirst1 : ∀ t : Fin cfg1.N, first1 (grid1.coords t) ↔ t.val % 8 = 0 :=
  (by decide +kernel : ∀ t : Fin grid1.N, first1 (grid1.coords t) ↔ t.val % 8 = 0)
abbrev last1 (i : grid1.Coords) : Prop := k1_cond2 i = 1#1
theorem hlast1 : ∀ t : Fin cfg1.N, last1 (grid1.coords t) ↔ t.val % 8 = 7 :=
  (by decide +kernel : ∀ t : Fin grid1.N, last1 (grid1.coords t) ↔ t.val % 8 = 7)

theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬last1 (grid1.coords t) → cfg1.idle 2 (grid1.coords t) = true := by decide +kernel
theorem noFlush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

abbrev ms1_0 (t : Fin cfg1.N) : Memref sig .tc .vmem S512x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev scM1 : Memref sig .tc .vmem S512x1024 .f32 := Memref.whole cc1_scratch0

/-! ## What the region hands each kernel besides its windows -/

/-- The first kernel's invariant before its first point: its accumulator at anything, the core's other scoped buffers
    at anything, the generator register at some state. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0, owns_whole]; try rfl

section Blocks

variable (V : (c : Dev nD) → (b : Ref sig .tc) → Buf (Elt F) ((c : Thread nD τ).loc b))

/-- Window `w`'s block at point `t` of the first kernel, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The same for the second kernel. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block of the array at every point, fetched there or not: where
    the pipeline does not fetch, the block index has not moved and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-- The second kernel's invariant before its first point: its accumulator at anything, the core's other scoped buffers
    at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ d, owns (c : Thread nD τ) scM1 fullShare d)) ∗ (∃ r, prngReg c r)) := by
  unfold Pipeline.ΦA; rw [scopedRest1_eq]; simp only [scM1, owns_whole]; try rfl

end Cert.KernelIdeal.Run

end
-- ==== Proof.KernelIdeal.Body0.lean ====
/-
  The grouped-product kernel's body at one grid point, in each of the three positions a point can have in its
  reduction over the contracted axis. In every position the body adds to the accumulator the product of the point's
  tile of tokens with the point's tile of the expert's weights. At the FIRST tile of a reduction it clears the
  accumulator beforehand, so whatever the accumulator held does not matter; at the LAST tile it then adds the expert's
  bias row to every row of the accumulator and stores the sum into the output tile; in BETWEEN it does neither, and
  the output tile's buffer is handed back as it was found. Each run leaves the accumulator (and at the last tile the
  output buffer) as a list of stored pieces, which the run itself determines.
-/
import proofs.«133026_j71571335020920_1_alg».proof.Proof.KernelIdeal.Conds

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First tile of a reduction (not the last): the accumulator may hold anything. -/
noncomputable def run0_first (c : Dev nD) (i : grid0.Coords) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x1024 .f32) (harg7 : arg7.IsWhole) (hc0 : first0 i) (hc1 : ¬last0 i)
    (x0 : Vec F S1024x1024 .f32) (x1 : Vec F S1x1024x1024 .f32) :
    { LS : List (View.Piece (Elt F) S1024x1024 .f32) //
      ∀ (x2 : Vec F S1x1x1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__expert_gemm_kernel i arg3 harg3 arg4 harg4 arg5 harg5 arg6 harg6 arg7 harg7) K } := by
  refine ⟨?_, fun x2 xi3 E K => ?run⟩
  case run =>
    simp only [cc0__expert_gemm_kernel_eq_skeleton]; unfold cc0__expert_gemm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- A tile in between: the accumulator holds what the point before left. -/
noncomputable def run0_mid (c : Dev nD) (i : grid0.Coords) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬first0 i) (hc1 : ¬last0 i)
    (x0 : Vec F S1024x1024 .f32) (x1 : Vec F S1x1024x1024 .f32) (xs : Vec F S1024x1024 .f32) :
    { LS : List (View.Piece (Elt F) S1024x1024 .f32) //
      ∀ (x2 : Vec F S1x1x1024 .f32) (xi3 : Vec F S1024x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS)) -∗ K ⟨⟩))
          ⊢ wp frame (wpE (defs₀ (F := F)) Variants.none c none) E (cc0__expert_gemm_kernel i arg3 harg3 arg4 harg4 arg5 harg5 arg6 harg6 arg7 harg7) K } := by
  refine ⟨?_, fun x2 xi3 E K => ?run⟩
  case run =>
    simp only [cc0__expert_gemm_kernel_eq_skeleton]; unfold cc0__expert_gemm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- Last tile of a reduction (not the first): the output tile's buffer may hold anything and ends with its pieces stored. -/
noncomputable def run0_last (c : Dev nD) (i : grid0.Coords) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x1024 .f32) (harg7 : arg7.IsWhole) (hc0 : ¬first0 i) (hc1 : last0 i)
    (x0 : Vec F S1024x1024 .f32) (x1 : Vec F S1x1024x1024 .f32) (x2 : Vec F S1x1x1024 .f32) (xs : Vec F S1024x1024 .f32) :
    Σ' (L3 : List (View.Piece (Elt F) S1024x1024 .bf16)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS)) -∗ K ⟨⟩))
          ⊢ wp frame (wpE (defs₀ (F := F)) Variants.none c none) E (cc0__expert_gemm_kernel i arg3 harg3 arg4 harg4 arg5 harg5 arg6 harg6 arg7 harg7) K } := by
  refine ⟨?_, ?_, fun E K => ?run⟩
  case run =>
    simp only [cc0__expert_gemm_kernel_eq_skeleton]; unfold cc0__expert_gemm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2; obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Run

end
-- ==== Proof.KernelIdeal.Region0.lean ====
/-
  The grouped-product kernel over its whole grid.

  The accumulator after point t is defined by recursion on t: at the first tile of a reduction (t % 4 = 0) it is the
  product of the point's two tiles added to zero, at any other tile it is that product added to what point t - 1
  left. The output tile's buffer after the last tile of a reduction is the accumulator with the expert's bias row
  added to every row. The region's invariant carries the accumulator from point to point at exactly these contents
  (before the first point it holds anything), beside the core's other scoped buffers and the generator register,
  which the body does not touch. With this the body obligation holds at every point: a case split on the point's
  position in its reduction, each case one of the three runs of the body.
-/
import proofs.«133026_j71571335020920_1_alg».proof.Proof.KernelIdeal.Body0
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator as a view, through which its contents are stated. -/
abbrev VS0 : View sig .tc .vmem S1024x1024 .f32 := scM0.view
/-- One staging buffer of the output window, through which its contents are stated. -/
abbrev VO0 : View sig .tc .vmem S1024x1024 .bf16 := (Memref.whole cc0_stg3_0 : Memref sig .tc .vmem S1024x1024 .bf16).view

theorem hz2 : (![0, 0] : Fin 2 → Nat) = fun _ => 0 := by
  funext a; match a with | ⟨0, _⟩ => rfl | ⟨1, _⟩ => rfl
theorem hz3 : (![0, 0, 0] : Fin 3 → Nat) = fun _ => 0 := by
  funext a; match a with | ⟨0, _⟩ => rfl | ⟨1, _⟩ => rfl | ⟨2, _⟩ => rfl

/-! ## What each case's stored pieces amount to -/

section Cases
variable (c : Dev nD) (i : grid0.Coords) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .bf16) (harg6 : arg6.IsWhole) (arg7 : Memref sig .tc .vmem S1024x1024 .f32) (harg7 : arg7.IsWhole)

theorem scover0_first (hc0 : first0 i) (hc1 : ¬last0 i) (x0 : Vec F S1024x1024 .f32) (x1 : Vec F S1x1024x1024 .f32) (y : S1024x1024.Idx) :
    ∃ pc ∈ (run0_first c i arg3 harg3 arg4 harg4 arg5 harg5 arg6 harg6 arg7 harg7 hc0 hc1 x0 x1).1, y ∈ pc.1.set :=
  View.cover_of_tiledL _ S1024x1024.size (by sl_kernel_rfl) y
theorem scover0_mid (hc0 : ¬first0 i) (hc1 : ¬last0 i) (x0 : Vec F S1024x1024 .f32) (x1 : Vec F S1x1024x1024 .f32) (xs : Vec F S1024x1024 .f32) (y : S1024x1024.Idx) :
    ∃ pc ∈ (run0_mid c i arg3 harg3 arg4 harg4 arg5 harg5 arg6 harg6 arg7 harg7 hc0 hc1 x0 x1 xs).1, y ∈ pc.1.set :=
  View.cover_of_tiledL _ S1024x1024.size (by sl_kernel_rfl) y
theorem scover0_last (hc0 : ¬first0 i) (hc1 : last0 i) (x0 : Vec F S1024x1024 .f32) (x1 : Vec F S1x1024x1024 .f32) (x2 : Vec F S1x1x1024 .f32) (xs : Vec F S1024x1024 .f32) (y : S1024x1024.Idx) :
    ∃ pc ∈ (run0_last c i arg3 harg3 arg4 harg4 arg5 harg5 arg6 harg6 arg7 harg7 hc0 hc1 x0 x1 x2 xs).2.1, y ∈ pc.1.set :=
  View.cover_of_tiledL _ S1024x1024.size (by sl_kernel_rfl) y
theorem ocover0_last (hc0 : ¬first0 i) (hc1 : last0 i) (x0 : Vec F S1024x1024 .f32) (x1 : Vec F S1x1024x1024 .f32) (x2 : Vec F S1x1x1024 .f32) (xs : Vec F S1024x1024 .f32) (y : S1024x1024.Idx) :
    ∃ pc ∈ (run0_last c i arg3 harg3 arg4 harg4 arg5 harg5 arg6 harg6 arg7 harg7 hc0 hc1 x0 x1 x2 xs).1, y ∈ pc.1.set :=
  View.cover_of_tiledL _ S1024x1024.size (by sl_kernel_rfl) y

/-- At the first tile the accumulator ends as the product added to zero. -/
theorem sc0_first_eq (hc0 : first0 i) (hc1 : ¬last0 i) (x0 : Vec F S1024x1024 .f32) (x1 : Vec F S1x1024x1024 .f32) :
    VS0.read (Elt F) (VS0.writes (Elt F) VS0.junk (run0_first c i arg3 harg3 arg4 harg4 arg5 harg5 arg6 harg6 arg7 harg7 hc0 hc1 x0 x1).1) = k0_pay2 x0 x1 (k0_pay1 (F := F)) := by
  rw [View.read_writes_eq_canon _ _ _ (scover0_first c i arg3 harg3 arg4 harg4 arg5 harg5 arg6 harg6 arg7 harg7 hc0 hc1 x0 x1)]
  unfold run0_first
  dsimp only
  sl_unfold_words
  rw [View.canon_cons_unit_zero (S := S1024x1024) hz2]
  simp only [View.readAt_eq_ld, harg3.read_unread, harg4.read_unread, View.ld_unit_zero (S := S1024x1024) hz2, View.ld_unit_zero (S := S1x1024x1024) hz3, View.readCov_unit_zero (S := S1024x1024) _ hz2]

/-- At a tile in between it ends as the product added to what it held. -/
theorem sc0_mid_eq (hc0 : ¬first0 i) (hc1 : ¬last0 i) (x0 : Vec F S1024x1024 .f32) (x1 : Vec F S1x1024x1024 .f32) (xs : Vec F S1024x1024 .f32) :
    VS0.read (Elt F) (VS0.writes (Elt F) VS0.junk (run0_mid c i arg3 harg3 arg4 harg4 arg5 harg5 arg6 harg6 arg7 harg7 hc0 hc1 x0 x1 xs).1) = k0_pay2 x0 x1 xs := by
  rw [View.read_writes_eq_canon _ _ _ (scover0_mid c i arg3 harg3 arg4 harg4 arg5 harg5 arg6 harg6 arg7 harg7 hc0 hc1 x0 x1 xs)]
  unfold run0_mid
  dsimp only
  sl_unfold_words
  rw [View.canon_unit_zero (S := S1024x1024) hz2]
  simp only [View.readAt_eq_ld, harg3.read_unread, harg4.read_unread, harg7.read_unread, View.ld_unit_zero (S := S1024x1024) hz2, View.ld_unit_zero (S := S1x1024x1024) hz3]

/-- At the last tile the same, -/
theorem sc0_last_eq (hc0 : ¬first0 i) (hc1 : last0 i) (x0 : Vec F S1024x1024 .f32) (x1 : Vec F S1x1024x1024 .f32) (x2 : Vec F S1x1x1024 .f32) (xs : Vec F S1024x1024 .f32) :
    VS0.read (Elt F) (VS0.writes (Elt F) VS0.junk (run0_last c i arg3 harg3 arg4 harg4 arg5 harg5 arg6 harg6 arg7 harg7 hc0 hc1 x0 x1 x2 xs).2.1) = k0_pay2 x0 x1 xs := by
  rw [View.read_writes_eq_canon _ _ _ (scover0_last c i arg3 harg3 arg4 harg4 arg5 harg5 arg6 harg6 arg7 harg7 hc0 hc1 x0 x1 x2 xs)]
  unfold run0_last
  dsimp only
  sl_unfold_words
  rw [View.canon_unit_zero (S := S1024x1024) hz2]
  simp only [View.readAt_eq_ld, harg3.read_unread, harg4.read_unread, harg7.read_unread, View.ld_unit_zero (S := S1024x1024) hz2, View.ld_unit_zero (S := S1x1024x1024) hz3]

/-- and the output tile's buffer ends as that accumulator with the bias row added to every row. -/
theorem out0_last_eq (hc0 : ¬first0 i) (hc1 : last0 i) (x0 : Vec F S1024x1024 .f32) (x1 : Vec F S1x1024x1024 .f32) (x2 : Vec F S1x1x1024 .f32) (xs : Vec F S1024x1024 .f32) :
    VO0.read (Elt F) (VO0.writes (Elt F) VO0.junk (run0_last c i arg3 harg3 arg4 harg4 arg5 harg5 arg6 harg6 arg7 harg7 hc0 hc1 x0 x1 x2 xs).1) = k0_pay3 x2 (k0_pay2 x0 x1 xs) := by
  rw [View.read_writes_eq_canon _ _ _ (ocover0_last c i arg3 harg3 arg4 harg4 arg5 harg5 arg6 harg6 arg7 harg7 hc0 hc1 x0 x1 x2 xs)]
  unfold run0_last
  dsimp only
  sl_unfold_words
  rw [View.canon_unit_zero (S := S1024x1024) hz2]
  simp only [View.readAt_eq_ld, harg3.read_unread, harg4.read_unread, harg5.read_unread, harg7.read_unread, View.ld_unit_zero (S := S1024x1024) hz2, View.ld_unit_zero (S := S1x1024x1024) hz3, View.ld_unit_zero (S := S1x1x1024) hz3, View.readCov_unit_zero (S := S1024x1024) _ hz2]

end Cases

/-! ## The accumulator and the proof data over the grid -/

section Data
variable (V : (c : Dev nD) → (b : Ref sig .tc) → Buf (Elt F) ((c : Thread nD τ).loc b))

/-- THE ACCUMULATION: what the accumulator holds after the body at point `n`. -/
def acc0 (c : Dev nD) : (n : ℕ) → n < cfg0.N → Vec F S1024x1024 .f32
  | 0, hn => k0_pay2 (iblk0 V c 0 ⟨0, hn⟩) (iblk0 V c 1 ⟨0, hn⟩) (k0_pay1 (F := F))
  | n + 1, hn =>
    if (n + 1) % 4 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

/-- At the first tile of a reduction: the product added to zero. -/
theorem acc0_first (c : Dev nD) (t : Fin cfg0.N) (h : t.val % 4 = 0) :
    acc0 V c t.val t.isLt = k0_pay2 (iblk0 V c 0 t) (iblk0 V c 1 t) (k0_pay1 (F := F)) := by
  obtain ⟨n, hn⟩ := t
  cases n with
  | zero => rfl
  | succ n => exact if_pos h

/-- At any other tile: the product added to what the point before left. -/
theorem acc0_next (c : Dev nD) (t : Fin cfg0.N) (h : ¬t.val % 4 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h
  | succ n => exact if_neg h

/-- The core's scoped buffers the kernel does not use: the second kernel's staging buffers and accumulator, each at anything. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

theorem PhiA0_eq' (c : Dev nD) :
    (Pipeline.ΦA spec0 c : sProp 𝕄) = iprop(iprop((∃ d, owns (c : Thread nD τ) scM0 fullShare d) ∗ rest0 c) ∗ (∃ r, prngReg c r)) :=
  PhiA0_eq c

/-- The region's invariant before position `n`: before the first point the accumulator holds anything; afterwards it
    holds what the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (acc0 V c n hn) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 c) ∗ (∃ r, prngReg c r)) := by
  cases n with
  | zero => exact absurd rfl hz
  | succ n => rfl

/-- The proof data of the grouped-product pipeline on core `c`: the arrays as the region finds them; after the body
    each input's buffer at its block, the output's at the accumulator plus the bias row; the invariant above; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (iblk0 V c 2 t) (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (iblk0 V c 2 t) (acc0 V c t.val t.isLt) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks; the point's position in its reduction selects the
    run; the invariant hands the body the accumulator at what the point before left (at anything where the reduction
    starts) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  have hN : t.val < 64 := lt_of_lt_of_eq t.isLt (show cfg0.N = 64 from N_0)
  by_cases h0 : t.val % 4 = 0
  · have h1 : ¬t.val % 4 = 3 := by omega
    have hc0 : first0 (grid0.coords t) := (hfirst0 t).mpr h0
    have hc1 : ¬last0 (grid0.coords t) := fun h => h1 ((hlast0 t).mp h)
    rw [Dat.leavesExact_idle (dat0 V c) 3 t (idle0_3 t hc1) (noFlush0_3 t hc1)]
    rw [acc0_first V c t h0]
    by_cases hz : t.val = 0
    · rw [PhiS0_castSucc V c t, PhiS0_zero V c _ _ hz, PhiA0_eq']
      iintro ⟨⟨⟨HS, Hr⟩, Hg⟩, Ho, ⟨%d0, H0⟩, ⟨%d1, H1⟩, ⟨%d2, H2⟩, ⟨%d3, H3⟩⟩
      iapply ((run0_first c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t)).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro
            exact (View.read_writes_of_cover _ _ _ _ _ (scover0_first c _ _ _ _ _ _ _ _ _ _ _ hc0 hc1 _ _)).trans (sc0_first_eq c _ _ _ _ _ _ _ _ _ _ _ hc0 hc1 _ _)
          iexact Hr
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, Hr⟩, Hg⟩, Ho, ⟨%d0, H0⟩, ⟨%d1, H1⟩, ⟨%d2, H2⟩, ⟨%d3, H3⟩⟩
      iapply ((run0_first c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t)).2 _ _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [HS Hr Hg]
      · isplitl [HS Hr]
        · isplitl [HS]
          · unfold owns; iexists _; isplitr
            swap; · iexact HS
            ipureintro
            exact (View.read_writes_of_cover _ _ _ _ _ (scover0_first c _ _ _ _ _ _ _ _ _ _ _ hc0 hc1 _ _)).trans (sc0_first_eq c _ _ _ _ _ _ _ _ _ _ _ hc0 hc1 _ _)
          iexact Hr
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 : ¬first0 (grid0.coords t) := fun h => h0 ((hfirst0 t).mp h)
    rw [acc0_next V c t h0]
    rw [PhiS0_castSucc V c t, PhiS0_pos V c _ _ hz]
    by_cases h1 : t.val % 4 = 3
    · have hc1 : last0 (grid0.coords t) := (hlast0 t).mpr h1
      rw [show (dat0 V c).leavesExact 3 t = owns (c : Thread nD τ) (ms0_3 t) fullShare ((dat0 V c).after 3 t) from by
        unfold Dat.leavesExact; rw [live0_3 t hc1], after0_3, acc0_next V c t h0]
      iintro ⟨⟨⟨HS, Hr⟩, Hg⟩, Ho, ⟨%d0, H0⟩, ⟨%d1, H1⟩, ⟨%d2, H2⟩, ⟨%d3, H3⟩⟩
      iapply ((run0_last c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hr Hg]
      · isplitl [HS Hr]
        · isplitl [HS]
          · unfold owns; iexists _; isplitr
            swap; · iexact HS
            ipureintro
            exact (View.read_writes_of_cover _ _ _ _ _ (scover0_last c _ _ _ _ _ _ _ _ _ _ _ hc0 hc1 _ _ _ _)).trans (sc0_last_eq c _ _ _ _ _ _ _ _ _ _ _ hc0 hc1 _ _ _ _)
          iexact Hr
        iexact Hg
      isplitl [Ho]; · iexact Ho
      isplitl [H0]; · iexact H0
      isplitl [H1]; · iexact H1
      isplitl [H2]; · iexact H2
      unfold owns; iexists _; isplitr
      swap; · iexact H3
      ipureintro
      exact (View.read_writes_of_cover _ _ _ _ _ (ocover0_last c _ _ _ _ _ _ _ _ _ _ _ hc0 hc1 _ _ _ _)).trans (out0_last_eq c _ _ _ _ _ _ _ _ _ _ _ hc0 hc1 _ _ _ _)
    · have hc1 : ¬last0 (grid0.coords t) := fun h => h1 ((hlast0 t).mp h)
      rw [Dat.leavesExact_idle (dat0 V c) 3 t (idle0_3 t hc1) (noFlush0_3 t hc1)]
      iintro ⟨⟨⟨HS, Hr⟩, Hg⟩, Ho, ⟨%d0, H0⟩, ⟨%d1, H1⟩, ⟨%d2, H2⟩, ⟨%d3, H3⟩⟩
      iapply ((run0_mid c (grid0.coords t) (ms0_0 t) (hs0_0 t) (ms0_1 t) (hs0_1 t) (ms0_2 t) (hs0_2 t) (ms0_3 t) (hs0_3 t) scM0 (Memref.isWhole_whole _) hc0 hc1 (iblk0 V c 0 t) (iblk0 V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hr Hg]
      · isplitl [HS Hr]
        · isplitl [HS]
          · unfold owns; iexists _; isplitr
            swap; · iexact HS
            ipureintro
            exact (View.read_writes_of_cover _ _ _ _ _ (scover0_mid c _ _ _ _ _ _ _ _ _ _ _ hc0 hc1 _ _ _)).trans (sc0_mid_eq c _ _ _ _ _ _ _ _ _ _ _ hc0 hc1 _ _ _)
          iexact Hr
        iexact Hg
      isplitl [Ho]; · iexact Ho
      isplitl [H0]; · iexact H0
      isplitl [H1]; · iexact H1
      isplitl [H2]; · iexact H2
      iexists _; iexact H3

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- and after the last point the invariant gives it back, the accumulator's contents forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq']
  iintro ⟨⟨HS, Hr⟩, Hg⟩
  isplitl [HS Hr]
  · isplitl [HS]; · iexists _; iexact HS
    iexact Hr
  iexact Hg

end Data

end Cert.KernelIdeal.Run

end
-- ==== Proof.KernelIdeal.Body1.lean ====
/-
  The combination kernel's body at one grid point, in each of the three positions a point can have in its reduction
  over the contracted axis. In every position the body adds to the accumulator the product of the point's tile of
  combine weights with the point's tile of the intermediate matrix. At the FIRST tile of a reduction it clears the
  accumulator beforehand; at the LAST tile it then copies the accumulator into the output tile; in BETWEEN it does
  neither, and the output tile's buffer is handed back as it was found. Each run leaves the accumulator (and at the
  last tile the output buffer) as a list of stored pieces, which the run itself determines.
-/
import proofs.«133026_j71571335020920_1_alg».proof.Proof.KernelIdeal.Conds

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First tile of a reduction (not the last): the accumulator may hold anything. -/
noncomputable def run1_first (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (hc0 : first1 i) (hc1 : ¬last1 i)
    (x0 : Vec F S512x2048 .f32) (x1 : Vec F S2048x1024 .bf16) :
    { LS : List (View.Piece (Elt F) S512x1024 .f32) //
      ∀ (xi2 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__combine_kernel i arg2 harg2 arg3 harg3 arg4 harg4 arg5 harg5) K } := by
  refine ⟨?_, fun xi2 E K => ?run⟩
  case run =>
    simp only [cc1__combine_kernel_eq_skeleton]; unfold cc1__combine_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- A tile in between: the accumulator holds what the point before left. -/
noncomputable def run1_mid (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (hc0 : ¬first1 i) (hc1 : ¬last1 i)
    (x0 : Vec F S512x2048 .f32) (x1 : Vec F S2048x1024 .bf16) (xs : Vec F S512x1024 .f32) :
    { LS : List (View.Piece (Elt F) S512x1024 .f32) //
      ∀ (xi2 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__combine_kernel i arg2 harg2 arg3 harg3 arg4 harg4 arg5 harg5) K } := by
  refine ⟨?_, fun xi2 E K => ?run⟩
  case run =>
    simp only [cc1__combine_kernel_eq_skeleton]; unfold cc1__combine_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Last tile of a reduction (not the first): the output tile's buffer may hold anything and ends with its pieces stored. -/
noncomputable def run1_last (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole) (hc0 : ¬first1 i) (hc1 : last1 i)
    (x0 : Vec F S512x2048 .f32) (x1 : Vec F S2048x1024 .bf16) (xs : Vec F S512x1024 .f32) :
    Σ' (L2 : List (View.Piece (Elt F) S512x1024 .f32)), { LS : List (View.Piece (Elt F) S512x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__combine_kernel i arg2 harg2 arg3 harg3 arg4 harg4 arg5 harg5) K } := by
  refine ⟨?_, ?_, fun E K => ?run⟩
  case run =>
    simp only [cc1__combine_kernel_eq_skeleton]; unfold cc1__combine_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Run

end
-- ==== Proof.KernelIdeal.Region1.lean ====
/-
  The combination kernel over its whole grid.

  The accumulator after point t is defined by recursion on t: at the first tile of a reduction (t % 8 = 0) it is the
  product of the point's two tiles added to zero, at any other tile it is that product added to what point t - 1
  left. The output tile's buffer after the last tile of a reduction is that accumulator. The region's invariant
  carries the accumulator from point to point at exactly these contents (before the first point it holds anything),
  beside the core's other scoped buffers and the generator register, which the body does not touch. With this the
  body obligation holds at every point: a case split on the point's position in its reduction, each case one of the
  three runs of the body.
-/
import proofs.«133026_j71571335020920_1_alg».proof.Proof.KernelIdeal.Body1
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulator as a view, through which its contents are stated. -/
abbrev VS1 : View sig .tc .vmem S512x1024 .f32 := scM1.view
/-- One staging buffer of the output window, through which its contents are stated. -/
abbrev VO1 : View sig .tc .vmem S512x1024 .f32 := (Memref.whole cc1_stg2_0 : Memref sig .tc .vmem S512x1024 .f32).view

theorem hz2' : (![0, 0] : Fin 2 → Nat) = fun _ => 0 := by
  funext a; match a with | ⟨0, _⟩ => rfl | ⟨1, _⟩ => rfl

/-! ## What each case's stored pieces amount to -/

section Cases
variable (c : Dev nD) (i : grid1.Coords) (arg2 : Memref sig .tc .vmem S512x2048 .f32) (harg2 : arg2.IsWhole) (arg3 : Memref sig .tc .vmem S2048x1024 .bf16) (harg3 : arg3.IsWhole) (arg4 : Memref sig .tc .vmem S512x1024 .f32) (harg4 : arg4.IsWhole) (arg5 : Memref sig .tc .vmem S512x1024 .f32) (harg5 : arg5.IsWhole)

theorem scover1_first (hc0 : first1 i) (hc1 : ¬last1 i) (x0 : Vec F S512x2048 .f32) (x1 : Vec F S2048x1024 .bf16) (y : S512x1024.Idx) :
    ∃ pc ∈ (run1_first c i arg2 harg2 arg3 harg3 arg4 harg4 arg5 harg5 hc0 hc1 x0 x1).1, y ∈ pc.1.set :=
  View.cover_of_tiledL _ S512x1024.size (by sl_kernel_rfl) y
theorem scover1_mid (hc0 : ¬first1 i) (hc1 : ¬last1 i) (x0 : Vec F S512x2048 .f32) (x1 : Vec F S2048x1024 .bf16) (xs : Vec F S512x1024 .f32) (y : S512x1024.Idx) :
    ∃ pc ∈ (run1_mid c i arg2 harg2 arg3 harg3 arg4 harg4 arg5 harg5 hc0 hc1 x0 x1 xs).1, y ∈ pc.1.set :=
  View.cover_of_tiledL _ S512x1024.size (by sl_kernel_rfl) y
theorem scover1_last (hc0 : ¬first1 i) (hc1 : last1 i) (x0 : Vec F S512x2048 .f32) (x1 : Vec F S2048x1024 .bf16) (xs : Vec F S512x1024 .f32) (y : S512x1024.Idx) :
    ∃ pc ∈ (run1_last c i arg2 harg2 arg3 harg3 arg4 harg4 arg5 harg5 hc0 hc1 x0 x1 xs).2.1, y ∈ pc.1.set :=
  View.cover_of_tiledL _ S512x1024.size (by sl_kernel_rfl) y
theorem ocover1_last (hc0 : ¬first1 i) (hc1 : last1 i) (x0 : Vec F S512x2048 .f32) (x1 : Vec F S2048x1024 .bf16) (xs : Vec F S512x1024 .f32) (y : S512x1024.Idx) :
    ∃ pc ∈ (run1_last c i arg2 harg2 arg3 harg3 arg4 harg4 arg5 harg5 hc0 hc1 x0 x1 xs).1, y ∈ pc.1.set :=
  View.cover_of_tiledL _ S512x1024.size (by sl_kernel_rfl) y

/-- At the first tile the accumulator ends as the product added to zero. -/
theorem sc1_first_eq (hc0 : first1 i) (hc1 : ¬last1 i) (x0 : Vec F S512x2048 .f32) (x1 : Vec F S2048x1024 .bf16) :
    VS1.read (Elt F) (VS1.writes (Elt F) VS1.junk (run1_first c i arg2 harg2 arg3 harg3 arg4 harg4 arg5 harg5 hc0 hc1 x0 x1).1) = k1_pay2 x0 x1 (k1_pay1 (F := F)) := by
  rw [View.read_writes_eq_canon _ _ _ (scover1_first c i arg2 harg2 arg3 harg3 arg4 harg4 arg5 harg5 hc0 hc1 x0 x1)]
  unfold run1_first
  dsimp only
  sl_unfold_words
  rw [View.canon_cons_unit_zero (S := S512x1024) hz2']
  simp only [View.readAt_eq_ld, harg2.read_unread, harg3.read_unread, View.ld_unit_zero (S := S512x2048) hz2', View.ld_unit_zero (S := S2048x1024) hz2', View.ld_unit_zero (S := S512x1024) hz2', View.readCov_unit_zero (S := S512x1024) _ hz2']

/-- At a tile in between it ends as the product added to what it held. -/
theorem sc1_mid_eq (hc0 : ¬first1 i) (hc1 : ¬last1 i) (x0 : Vec F S512x2048 .f32) (x1 : Vec F S2048x1024 .bf16) (xs : Vec F S512x1024 .f32) :
    VS1.read (Elt F) (VS1.writes (Elt F) VS1.junk (run1_mid c i arg2 harg2 arg3 harg3 arg4 harg4 arg5 harg5 hc0 hc1 x0 x1 xs).1) = k1_pay2 x0 x1 xs := by
  rw [View.read_writes_eq_canon _ _ _ (scover1_mid c i arg2 harg2 arg3 harg3 arg4 harg4 arg5 harg5 hc0 hc1 x0 x1 xs)]
  unfold run1_mid
  dsimp only
  sl_unfold_words
  rw [View.canon_unit_zero (S := S512x1024) hz2']
  simp only [View.readAt_eq_ld, harg2.read_unread, harg3.read_unread, harg5.read_unread, View.ld_unit_zero (S := S512x2048) hz2', View.ld_unit_zero (S := S2048x1024) hz2', View.ld_unit_zero (S := S512x1024) hz2']

/-- At the last tile the same, -/
theorem sc1_last_eq (hc0 : ¬first1 i) (hc1 : last1 i) (x0 : Vec F S512x2048 .f32) (x1 : Vec F S2048x1024 .bf16) (xs : Vec F S512x1024 .f32) :
    VS1.read (Elt F) (VS1.writes (Elt F) VS1.junk (run1_last c i arg2 harg2 arg3 harg3 arg4 harg4 arg5 harg5 hc0 hc1 x0 x1 xs).2.1) = k1_pay2 x0 x1 xs := by
  rw [View.read_writes_eq_canon _ _ _ (scover1_last c i arg2 harg2 arg3 harg3 arg4 harg4 arg5 harg5 hc0 hc1 x0 x1 xs)]
  unfold run1_last
  dsimp only
  sl_unfold_words
  rw [View.canon_unit_zero (S := S512x1024) hz2']
  simp only [View.readAt_eq_ld, harg2.read_unread, harg3.read_unread, harg5.read_unread, View.ld_unit_zero (S := S512x2048) hz2', View.ld_unit_zero (S := S2048x1024) hz2', View.ld_unit_zero (S := S512x1024) hz2']

/-- and the output tile's buffer ends as a copy of that accumulator. -/
theorem out1_last_eq (hc0 : ¬first1 i) (hc1 : last1 i) (x0 : Vec F S512x2048 .f32) (x1 : Vec F S2048x1024 .bf16) (xs : Vec F S512x1024 .f32) :
    VO1.read (Elt F) (VO1.writes (Elt F) VO1.junk (run1_last c i arg2 harg2 arg3 harg3 arg4 harg4 arg5 harg5 hc0 hc1 x0 x1 xs).1) = k1_pay2 x0 x1 xs := by
  rw [View.read_writes_eq_canon _ _ _ (ocover1_last c i arg2 harg2 arg3 harg3 arg4 harg4 arg5 harg5 hc0 hc1 x0 x1 xs)]
  unfold run1_last
  dsimp only
  sl_unfold_words
  rw [View.canon_unit_zero (S := S512x1024) hz2']
  simp only [View.readAt_eq_ld, harg2.read_unread, harg3.read_unread, harg5.read_unread, View.ld_unit_zero (S := S512x2048) hz2', View.ld_unit_zero (S := S2048x1024) hz2', View.ld_unit_zero (S := S512x1024) hz2', View.readCov_unit_zero (S := S512x1024) _ hz2']

end Cases

/-! ## The accumulator and the proof data over the grid -/

section Data
variable (V : (c : Dev nD) → (b : Ref sig .tc) → Buf (Elt F) ((c : Thread nD τ).loc b))

/-- THE ACCUMULATION: what the accumulator holds after the body at point `n`. -/
def acc1 (c : Dev nD) : (n : ℕ) → n < cfg1.N → Vec F S512x1024 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

/-- At the first tile of a reduction: the product added to zero. -/
theorem acc1_first (c : Dev nD) (t : Fin cfg1.N) (h : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h

/-- At any other tile: the product added to what the point before left. -/
theorem acc1_next (c : Dev nD) (t : Fin cfg1.N) (h : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h
  | succ n => exact if_neg h

/-- The region's invariant before position `n`: before the first point the accumulator holds anything; afterwards it
    holds what the point before left; the first kernel's scoped buffers, which this kernel does not use, at anything. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare (acc1 V c n hn)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ owns (c : Thread nD τ) scM1 fullShare (acc1 V c (n - 1) (by omega))) ∗ (∃ r, prngReg c r)) := by
  cases n with
  | zero => exact absurd rfl hz
  | succ n => rfl

/-- The proof data of the combination pipeline on core `c`: the arrays as the region finds them; after the body each
    input's buffer at its block, the output's at the accumulator; the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; the point's position in its reduction selects the
    run; the invariant hands the body the accumulator at what the point before left (at anything where the reduction
    starts) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 128 := lt_of_lt_of_eq t.isLt (show cfg1.N = 128 from N_1)
  by_cases h0 : t.val % 8 = 0
  · have h1 : ¬t.val % 8 = 7 := by omega
    have hc0 : first1 (grid1.coords t) := (hfirst1 t).mpr h0
    have hc1 : ¬last1 (grid1.coords t) := fun h => h1 ((hlast1 t).mp h)
    rw [Dat.leavesExact_idle (dat1 V c) 2 t (idle1_2 t hc1) (noFlush1_2 t hc1)]
    rw [acc1_first V c t h0]
    by_cases hz : t.val = 0
    · rw [PhiS1_castSucc V c t, PhiS1_zero V c _ _ hz, PhiA1_eq]
      iintro ⟨⟨⟨B1, B2, B3, B4, B5, B6, B7, B8, B9, HS⟩, Hg⟩, Ho, ⟨%d0, H0⟩, ⟨%d1, H1⟩, ⟨%d2, H2⟩⟩
      iapply ((run1_first c (grid1.coords t) (ms1_0 t) (hs1_0 t) (ms1_1 t) (hs1_1 t) (ms1_2 t) (hs1_2 t) scM1 (Memref.isWhole_whole _) hc0 hc1 (iblk1 V c 0 t) (iblk1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [B1 B2 B3 B4 B5 B6 B7 B8 B9 HS Hg]
      · isplitl [B1 B2 B3 B4 B5 B6 B7 B8 B9 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          unfold owns; iexists _; isplitr
          swap; · iexact HS
          ipureintro
          exact (View.read_writes_of_cover _ _ _ _ _ (scover1_first c _ _ _ _ _ _ _ _ _ hc0 hc1 _ _)).trans (sc1_first_eq c _ _ _ _ _ _ _ _ _ hc0 hc1 _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨B1, B2, B3, B4, B5, B6, B7, B8, B9, HS⟩, Hg⟩, Ho, ⟨%d0, H0⟩, ⟨%d1, H1⟩, ⟨%d2, H2⟩⟩
      iapply ((run1_first c (grid1.coords t) (ms1_0 t) (hs1_0 t) (ms1_1 t) (hs1_1 t) (ms1_2 t) (hs1_2 t) scM1 (Memref.isWhole_whole _) hc0 hc1 (iblk1 V c 0 t) (iblk1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [B1 B2 B3 B4 B5 B6 B7 B8 B9 HS Hg]
      · isplitl [B1 B2 B3 B4 B5 B6 B7 B8 B9 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          unfold owns; iexists _; isplitr
          swap; · iexact HS
          ipureintro
          exact (View.read_writes_of_cover _ _ _ _ _ (scover1_first c _ _ _ _ _ _ _ _ _ hc0 hc1 _ _)).trans (sc1_first_eq c _ _ _ _ _ _ _ _ _ hc0 hc1 _ _)
        iexact Hg
      isplitl [Ho]; · iexact Ho
      isplitl [H0]; · iexact H0
      isplitl [H1]; · iexact H1
      iexists _; iexact H2
  · have hz : t.val ≠ 0 := fun h => h0 (by rw [h])
    have hc0 : ¬first1 (grid1.coords t) := fun h => h0 ((hfirst1 t).mp h)
    rw [acc1_next V c t h0]
    rw [PhiS1_castSucc V c t, PhiS1_pos V c _ _ hz]
    by_cases h1 : t.val % 8 = 7
    · have hc1 : last1 (grid1.coords t) := (hlast1 t).mpr h1
      rw [show (dat1 V c).leavesExact 2 t = owns (c : Thread nD τ) (ms1_2 t) fullShare ((dat1 V c).after 2 t) from by
        unfold Dat.leavesExact; rw [live1_2 t hc1], after1_2, acc1_next V c t h0]
      iintro ⟨⟨⟨B1, B2, B3, B4, B5, B6, B7, B8, B9, HS⟩, Hg⟩, Ho, ⟨%d0, H0⟩, ⟨%d1, H1⟩, ⟨%d2, H2⟩⟩
      iapply ((run1_last c (grid1.coords t) (ms1_0 t) (hs1_0 t) (ms1_1 t) (hs1_1 t) (ms1_2 t) (hs1_2 t) scM1 (Memref.isWhole_whole _) hc0 hc1 (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [B1 B2 B3 B4 B5 B6 B7 B8 B9 HS Hg]
      · isplitl [B1 B2 B3 B4 B5 B6 B7 B8 B9 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          unfold owns; iexists _; isplitr
          swap; · iexact HS
          ipureintro
          exact (View.read_writes_of_cover _ _ _ _ _ (scover1_last c _ _ _ _ _ _ _ _ _ hc0 hc1 _ _ _)).trans (sc1_last_eq c _ _ _ _ _ _ _ _ _ hc0 hc1 _ _ _)
        iexact Hg
      isplitl [Ho]; · iexact Ho
      isplitl [H0]; · iexact H0
      isplitl [H1]; · iexact H1
      unfold owns; iexists _; isplitr
      swap; · iexact H2
      ipureintro
      exact (View.read_writes_of_cover _ _ _ _ _ (ocover1_last c _ _ _ _ _ _ _ _ _ hc0 hc1 _ _ _)).trans (out1_last_eq c _ _ _ _ _ _ _ _ _ hc0 hc1 _ _ _)
    · have hc1 : ¬last1 (grid1.coords t) := fun h => h1 ((hlast1 t).mp h)
      rw [Dat.leavesExact_idle (dat1 V c) 2 t (idle1_2 t hc1) (noFlush1_2 t hc1)]
      iintro ⟨⟨⟨B1, B2, B3, B4, B5, B6, B7, B8, B9, HS⟩, Hg⟩, Ho, ⟨%d0, H0⟩, ⟨%d1, H1⟩, ⟨%d2, H2⟩⟩
      iapply ((run1_mid c (grid1.coords t) (ms1_0 t) (hs1_0 t) (ms1_1 t) (hs1_1 t) (ms1_2 t) (hs1_2 t) scM1 (Memref.isWhole_whole _) hc0 hc1 (iblk1 V c 0 t) (iblk1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [B1 B2 B3 B4 B5 B6 B7 B8 B9 HS Hg]
      · isplitl [B1 B2 B3 B4 B5 B6 B7 B8 B9 HS]
        · isplitl [B1]; · iexact B1
          isplitl [B2]; · iexact B2
          isplitl [B3]; · iexact B3
          isplitl [B4]; · iexact B4
          isplitl [B5]; · iexact B5
          isplitl [B6]; · iexact B6
          isplitl [B7]; · iexact B7
          isplitl [B8]; · iexact B8
          isplitl [B9]; · iexact B9
          unfold owns; iexists _; isplitr
          swap; · iexact HS
          ipureintro
          exact (View.read_writes_of_cover _ _ _ _ _ (scover1_mid c _ _ _ _ _ _ _ _ _ hc0 hc1 _ _ _)).trans (sc1_mid_eq c _ _ _ _ _ _ _ _ _ hc0 hc1 _ _ _)
        iexact Hg
      isplitl [Ho]; · iexact Ho
      isplitl [H0]; · iexact H0
      isplitl [H1]; · iexact H1
      iexists _; iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- and after the last point the invariant gives it back, the accumulator's contents forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨B1, B2, B3, B4, B5, B6, B7, B8, B9, HS⟩, Hg⟩
  isplitl [B1 B2 B3 B4 B5 B6 B7 B8 B9 HS]
  · isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexists _; iexact HS
  iexact Hg

end Data

end Cert.KernelIdeal.Run

end
-- ==== Proof.KernelIdeal.Main.lean ====
/-
  The whole program, from launch to return, with every buffer's contents named at every boundary.

  @main is four items: the grouped-product kernel, a re-layout of the combine weights into a matrix, the
  combination kernel, a re-layout of its result into the output tensor. Between items the core holds every unscoped
  buffer whole. The contents at each boundary are a fold from the launch memory: a kernel region leaves each of its
  windows' arrays at what its write-backs leave (the inputs as entered, the output at the pipeline's final contents)
  and every other buffer as entered; a host stretch leaves what its operations compute. Each region is entered from
  the contents the item before it left, its proof data instantiated at exactly those contents, so the second kernel
  reads the first kernel's output matrix by name. The launch theorem for a list of such items then gives: every
  weakly fair execution terminates, nothing faults, and the final memory holds every unscoped buffer at the last
  boundary's contents. Read at an argument this is the launch contents, since no item writes an argument; read at
  the result it is the re-layout of the second kernel's output matrix.
-/
import proofs.«133026_j71571335020920_1_alg».proof.Proof.KernelIdeal.Region0
import proofs.«133026_j71571335020920_1_alg».proof.Proof.KernelIdeal.Region1
import proofs.«133026_j71571335020920_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev buf0 : Dev nD → Valuation τ sig (Elt F) := fun c b => m (c, b)
/-- The same read at the TensorCore's references: what the first kernel's proof data take. -/
abbrev ent0 : (c : Dev nD) → (b : Ref sig .tc) → Buf (Elt F) ((c : Thread nD τ).loc b) := fun c b => buf0 m c b
/-- After the first kernel: its arrays at what the pipeline leaves, every other buffer as entered. -/
def buf1 (c : Dev nD) : Valuation τ sig (Elt F) :=
  Pipeline.withArrays spec0 c (buf0 m c) fun w => (dat0 (ent0 m) c).arrAt w cfg0.N
theorem buf1_arr (c : Dev nD) (w : Fin cfg0.W) :
    buf1 m c (Proc.devRef .tc (Pipeline.arrRef spec0 w)) = (dat0 (ent0 m) c).arrAt w cfg0.N := by
  unfold buf1; exact Pipeline.withArrays_arr spec0 launch0.win.arr_inj c _ _ w
theorem buf1_of_ne (c : Dev nD) (b : Ref sig .tc) (hb : ∀ w, Pipeline.arrRef spec0 w ≠ b) :
    buf1 m c (Proc.devRef .tc b) = buf0 m c (Proc.devRef .tc b) := by
  unfold buf1; exact Pipeline.withArrays_of_ne spec0 c _ _ b hb
abbrev exit0 : (c : Dev nD) → (b : Ref sig .tc) → Buf (Elt F) ((c : Thread nD τ).loc b) := fun c b => buf1 m c b
theorem hF0 (c : Dev nD) (w : Fin cfg0.W) : (dat0 (ent0 m) c).arrAt w cfg0.N = exit0 m c (Pipeline.arrRef spec0 w) :=
  (buf1_arr m c w).symm
theorem hrest0 (c : Dev nD) : ∀ b, b ∉ Finset.univ.image (Pipeline.arrRef spec0) → exit0 m c b = ent0 m c b :=
  fun b hb => buf1_of_ne m c b fun w e => hb (Finset.mem_image.mpr ⟨w, Finset.mem_univ _, e⟩)

/-- After the combine weights' re-layout. -/
abbrev buf2 : Dev nD → Valuation τ sig (Elt F) := fun c => StableHlo.after hostOps1 (buf1 m c)
abbrev ent1 : (c : Dev nD) → (b : Ref sig .tc) → Buf (Elt F) ((c : Thread nD τ).loc b) := fun c b => buf2 m c b
/-- After the second kernel. -/
def buf3 (c : Dev nD) : Valuation τ sig (Elt F) :=
  Pipeline.withArrays spec1 c (buf2 m c) fun w => (dat1 (ent1 m) c).arrAt w cfg1.N
theorem buf3_arr (c : Dev nD) (w : Fin cfg1.W) :
    buf3 m c (Proc.devRef .tc (Pipeline.arrRef spec1 w)) = (dat1 (ent1 m) c).arrAt w cfg1.N := by
  unfold buf3; exact Pipeline.withArrays_arr spec1 launch1.win.arr_inj c _ _ w
theorem buf3_of_ne (c : Dev nD) (b : Ref sig .tc) (hb : ∀ w, Pipeline.arrRef spec1 w ≠ b) :
    buf3 m c (Proc.devRef .tc b) = buf2 m c (Proc.devRef .tc b) := by
  unfold buf3; exact Pipeline.withArrays_of_ne spec1 c _ _ b hb
abbrev exit1 : (c : Dev nD) → (b : Ref sig .tc) → Buf (Elt F) ((c : Thread nD τ).loc b) := fun c b => buf3 m c b
theorem hF1 (c : Dev nD) (w : Fin cfg1.W) : (dat1 (ent1 m) c).arrAt w cfg1.N = exit1 m c (Pipeline.arrRef spec1 w) :=
  (buf3_arr m c w).symm
theorem hrest1 (c : Dev nD) : ∀ b, b ∉ Finset.univ.image (Pipeline.arrRef spec1) → exit1 m c b = ent1 m c b :=
  fun b hb => buf3_of_ne m c b fun w e => hb (Finset.mem_image.mpr ⟨w, Finset.mem_univ _, e⟩)
/-- After the result's re-layout: the contents at the return. -/
abbrev buf4 : Dev nD → Valuation τ sig (Elt F) := fun c => StableHlo.after hostOps2 (buf3 m c)

/-! ## No item writes an argument; the result is the last re-layout -/

theorem buf2_of (c : Dev nD) (r : Ref sig .tc) (h : r ∉ hostOps1_W) : buf2 m c r = buf1 m c r :=
  StableHlo.after_of_writes_sub hostOps1 _ hostOps1_writes h
theorem buf4_of (c : Dev nD) (r : Ref sig .tc) (h : r ∉ hostOps2_W) : buf4 m c r = buf3 m c r :=
  StableHlo.after_of_writes_sub hostOps2 _ hostOps2_writes h

theorem buf4_main_arg0 (c : Dev nD) : buf4 m c (Proc.devRef .tc main_arg0) = m ((c : Thread nD τ).loc main_arg0) :=
  calc buf4 m c (Proc.devRef .tc main_arg0)
    _ = buf3 m c (Proc.devRef .tc main_arg0) := buf4_of m c main_arg0 (by decide)
    _ = buf2 m c (Proc.devRef .tc main_arg0) := buf3_of_ne m c main_arg0 (by decide)
    _ = buf1 m c (Proc.devRef .tc main_arg0) := buf2_of m c main_arg0 (by decide)
    _ = buf0 m c (Proc.devRef .tc main_arg0) := (buf1_arr m c 0).trans (((dat0 (ent0 m) c).arrAt_in 0 rfl _).trans (A_eq0 (ent0 m) c 0))
    _ = m ((c : Thread nD τ).loc main_arg0) := rfl
theorem buf4_main_arg1 (c : Dev nD) : buf4 m c (Proc.devRef .tc main_arg1) = m ((c : Thread nD τ).loc main_arg1) :=
  calc buf4 m c (Proc.devRef .tc main_arg1)
    _ = buf3 m c (Proc.devRef .tc main_arg1) := buf4_of m c main_arg1 (by decide)
    _ = buf2 m c (Proc.devRef .tc main_arg1) := buf3_of_ne m c main_arg1 (by decide)
    _ = buf1 m c (Proc.devRef .tc main_arg1) := buf2_of m c main_arg1 (by decide)
    _ = buf0 m c (Proc.devRef .tc main_arg1) := buf1_of_ne m c main_arg1 (by decide)
    _ = m ((c : Thread nD τ).loc main_arg1) := rfl
theorem buf4_main_arg2 (c : Dev nD) : buf4 m c (Proc.devRef .tc main_arg2) = m ((c : Thread nD τ).loc main_arg2) :=
  calc buf4 m c (Proc.devRef .tc main_arg2)
    _ = buf3 m c (Proc.devRef .tc main_arg2) := buf4_of m c main_arg2 (by decide)
    _ = buf2 m c (Proc.devRef .tc main_arg2) := buf3_of_ne m c main_arg2 (by decide)
    _ = buf1 m c (Proc.devRef .tc main_arg2) := buf2_of m c main_arg2 (by decide)
    _ = buf0 m c (Proc.devRef .tc main_arg2) := (buf1_arr m c 1).trans (((dat0 (ent0 m) c).arrAt_in 1 rfl _).trans (A_eq0 (ent0 m) c 1))
    _ = m ((c : Thread nD τ).loc main_arg2) := rfl
theorem buf4_main_arg3 (c : Dev nD) : buf4 m c (Proc.devRef .tc main_arg3) = m ((c : Thread nD τ).loc main_arg3) :=
  calc buf4 m c (Proc.devRef .tc main_arg3)
    _ = buf3 m c (Proc.devRef .tc main_arg3) := buf4_of m c main_arg3 (by decide)
    _ = buf2 m c (Proc.devRef .tc main_arg3) := buf3_of_ne m c main_arg3 (by decide)
    _ = buf1 m c (Proc.devRef .tc main_arg3) := buf2_of m c main_arg3 (by decide)
    _ = buf0 m c (Proc.devRef .tc main_arg3) := (buf1_arr m c 2).trans (((dat0 (ent0 m) c).arrAt_in 2 rfl _).trans (A_eq0 (ent0 m) c 2))
    _ = m ((c : Thread nD τ).loc main_arg3) := rfl

/-- The combine weights as the second kernel finds them: the launch contents re-laid as a matrix. -/
theorem ent1_main_v1 (c : Dev nD) :
    ent1 m c main_v1 = shapeCast S8192x16384 (m ((c : Thread nD τ).loc main_arg1)) shapeCasts_S8192x8x2048_S8192x16384 := by
  show StableHlo.after hostOps1 (buf1 m c) (Proc.devRef .tc main_v1) = _
  after_results
  exact congrArg (fun x => shapeCast S8192x16384 x shapeCasts_S8192x8x2048_S8192x16384) (buf1_of_ne m c main_arg1 (by decide))
/-- The intermediate matrix as the second kernel finds it: what the first kernel's write-backs left. -/
theorem ent1_main_v0 (c : Dev nD) : ent1 m c main_v0 = (dat0 (ent0 m) c).arrAt 3 cfg0.N :=
  (buf2_of m c main_v0 (by decide)).trans (buf1_arr m c 3)
/-- The result at the return: the second kernel's output matrix re-laid as the output tensor. -/
theorem buf4_main_v3 (c : Dev nD) :
    buf4 m c (Proc.devRef .tc main_v3) = shapeCast S4x2048x1024 ((dat1 (ent1 m) c).arrAt 2 cfg1.N) shapeCasts_S8192x1024_S4x2048x1024 := by
  show StableHlo.after hostOps2 (buf3 m c) (Proc.devRef .tc main_v3) = _
  after_results
  exact congrArg (fun x => shapeCast S4x2048x1024 x shapeCasts_S8192x1024_S4x2048x1024) (buf3_arr m c 2)

/-! ## The proof data family and what rides beside the buffers -/

/-- No pipeline has a prefetched table. -/
abbrev tabs : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) tabs p) c
  | ⟨0, _⟩ => fun c => dat0 (ent0 m) c
  | ⟨1, _⟩ => fun c => dat1 (ent1 m) c
abbrev vnone : Variants := Variants.none
/-- No core owes another anything: no level is assigned. -/
abbrev noLev : GSem nD τ sig → Finset Unit := fun _ => ∅
abbrev lev0 : GSem nD τ sig → Unit → ℕ := fun _ _ => 0
/-- Beside the buffers through every item: the generator register at some state and the core owing nothing. -/
abbrev beside (c : Dev nD) : sProp 𝕄 := iprop((∃ r, prngReg c r) ∗ ∃ W, owes (c : Thread nD τ) (0 : CellTallies nD τ sig Unit) W)
/-- A host stretch as an item, from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vnone noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev lastState (c : Dev nD) : sProp 𝕄 := iprop(StableHlo.held (c : Thread nD τ) (Pipeline.ucRefs τ sig) (buf4 m c) ∗ ∃ r, prngReg c r)

/-! ## The regions as items -/

set_option backward.isDefEq.respectTransparency.types false in
/-- The first kernel's region: entered from the launch contents, left at `buf1`. Its arrays are split out of the
    unscoped buffers and put back at the exit contents; the generator register goes into the invariant and comes back;
    nothing is owed; the kernel has no semaphore of its own. -/
def reg0 : Pipeline.RegionSeg (pcfgs (F := F)) tabs (pdats m) () defs₀ vnone noLev lev0 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ noLev lev0 0 fun _ _ => rfl
  pre c := iprop(StableHlo.held (c : Thread nD τ) (Pipeline.ucRefs τ sig) (buf0 m c) ∗ beside c)
  post c := iprop(StableHlo.held (c : Thread nD τ) (Pipeline.ucRefs τ sig) (buf1 m c) ∗ beside c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) tabs (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (ent0 m) c)
    unfold Pipeline.ΦA
    iintro ⟨Hp, -, Hr⟩
    isplitl [Hr]; · iexact Hr
    iexact Hp
  hout c := by
    rw [Pipeline.ownSems0_none]
    refine BIBase.Entails.trans (hout0 (ent0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m) ((pdats m 0 c).share_full fun _ => rfl)
      (ent0 m c) (exit0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered from `buf2`, left at `buf3`. -/
def reg1 : Pipeline.RegionSeg (pcfgs (F := F)) tabs (pdats m) () defs₀ vnone noLev lev0 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ noLev lev0 1 fun _ _ => rfl
  pre c := iprop(StableHlo.held (c : Thread nD τ) (Pipeline.ucRefs τ sig) (buf2 m c) ∗ beside c)
  post c := iprop(StableHlo.held (c : Thread nD τ) (Pipeline.ucRefs τ sig) (buf3 m c) ∗ beside c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) tabs (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (ent1 m) c)
    unfold Pipeline.ΦA
    iintro ⟨Hp, -, Hr⟩
    isplitl [Hr]; · iexact Hr
    iexact Hp
  hout c := by
    rw [Pipeline.ownSems0_none]
    refine BIBase.Entails.trans (hout1 (ent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m) ((pdats m 1 c).share_full fun _ => rfl)
      (ent1 m c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's four items in order. -/
abbrev items : List (Pipeline.Seg (pcfgs (F := F)) tabs (pdats m) () defs₀ vnone noLev lev0) :=
  [ .region (reg0 m),
    .host (hostItem hostOps1 hostOps1_sub hostOps1_fresh (buf1 m)),
    .region (reg1 m),
    .host (hostItem hostOps2 hostOps2_sub hostOps2_fresh (buf3 m)) ]
theorem main_run (c : Dev nD) : main (F := F) c = Pipeline.Seg.run (items m) := (main_chain c).trans (by chain_rfl)

set_option backward.isDefEq.respectTransparency.types false in
/-- THE RUN. From any memory with zero counters every weakly fair execution of @main terminates, nothing faulting,
    and the final memory holds every unscoped buffer of every core at the contents of the last boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = buf4 m c b) :=
  Pipeline.θ_run_regions_kit (pcfgs (F := F)) tabs (pdats m) () cellOf_inj emb₁ defs₀ vnone noLev lev0 m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (buf0 m c) ∗ beside c)) (Tₙ := lastState m)
    (hch := ⟨fun _ => .rfl, fun _ => .rfl, fun _ => .rfl, fun _ => .rfl, fun c => by
      show iprop(StableHlo.held (c.tc : Thread nD τ) (Pipeline.ucRefs τ sig) (StableHlo.after hostOps2 (buf3 m c)) ∗ beside c) ⊢ _
      iintro ⟨Hh, Hp, HO⟩
      isplitl [Hh Hp]
      · isplitl [Hh]; · iexact Hh
        iexact Hp
      iexact HO⟩)
    (hinit := by
      refine Pipeline.initEach noLev lev0 fun c => ?_
      rw [show unscopedBufs c (fun b => m ((c : Thread nD τ).loc b)) = StableHlo.held (c : Thread nD τ) (Pipeline.ucRefs τ sig) (buf0 m c)
        from Pipeline.unscopedBufs_held c (buf0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = buf4 m c b)
    (hfin := fun c s' => by
      iintro ⟨⟨Hh, -⟩, HSI⟩
      unfold StableHlo.held
      imodintro
      iapply (pointsTo_read_all (Pipeline.ucRefs τ sig) (fun b => (((c : Thread nD τ)).1, b)) (buf4 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (buf4_main_arg0 m c),
     (h c _ (mem_uc main_arg1 (by decide))).trans (buf4_main_arg1 m c),
     (h c _ (mem_uc main_arg2 (by decide))).trans (buf4_main_arg2 m c),
     (h c _ (mem_uc main_arg3 (by decide))).trans (buf4_main_arg3 m c)⟩) (run_all m ρ)

end Cert.KernelIdeal.Run

end
-- ==== Proof.LibSageSpec.lean ====
/-
  Dense layers at the extended reals, index by index. A layer's entry (p, q) is a sum over the contracted axis of a row
  of the left matrix against a column of the right one, plus a bias read at the column; a SAGE layer adds two such sums
  (the aggregated neighbours against one weight matrix, the node's own features against another) before the bias. The
  leaky activation is spelt exactly as both programs spell it: a select on `s ≥ 0` between `s` and a constant times `s`.
  A matrix product whose dimension numbers are the plain "rows by columns" ones (contract axis 1 of the left operand with
  axis 0 of the right) reads at (p, q) as that sum, on the MXU into a zero accumulator and on the host alike.
-/
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

/-- An [n × m] matrix of extended reals. -/
abbrev Mat (n m : Nat) : Type := (⟨2, ![n, m]⟩ : Shape).Idx → EReal

/-- Row `p` of `x` against column `q` of `W`. -/
def rowDot {n k m : Nat} (x : Mat n k) (W : Mat k m) (p : Fin n) (q : Fin m) : EReal :=
  ∑ j : Fin k, x (ix2 p j) * W (ix2 j q)

/-- The leaky activation as printed: `s` where `s ≥ 0`, else the slope constant (the f32 nearest 0.01) times `s`. -/
def leakyAt (s : EReal) : EReal :=
  Scalar.select (FloatOps.cmpf (F := Ideal) (φ := .f32) .oge s (Ideal.ofBits .f32 0x00000000#32)) s
    (FloatOps.mulf (F := Ideal) (φ := .f32) (Ideal.ofBits .f32 0x3C23D70A#32) s)

/-- A linear layer: `x · W + b`. -/
def linF {n k m : Nat} (x : Mat n k) (W : Mat k m) (b : Fin m → EReal) : Mat n m :=
  fun i => rowDot x W (i 0) (i 1) + b (i 1)

/-- A SAGE layer: `act (agg · Wl + h · Wr + b)`, the sums grouped as the kernel groups them. -/
def sageF {n k m : Nat} (act : EReal → EReal) (agg h : Mat n k) (Wl Wr : Mat k m) (b : Fin m → EReal) : Mat n m :=
  fun i => act (rowDot agg Wl (i 0) (i 1) + rowDot h Wr (i 0) (i 1) + b (i 1))

/-- The reference groups the bias with the first product: the same extended real (addition of extended reals is
    commutative and associative, infinities included). -/
theorem add_bias_comm (a b c : EReal) : a + c + b = a + b + c := add_right_comm a c b

/-- Dimension numbers of a plain [n × k] · [k × m] product: one contracted axis of extent `k`, the left operand read at
    (row, κ), the right at (κ, column). -/
structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

/-- The contracted sum of a plain product, re-indexed by the contracted axis's coordinate. -/
theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

/-- The MXU's product into a zero accumulator, at (p, q): row `p` against column `q`. Whatever the operands' formats:
    at the extended reals a change of format is the identity. -/
theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

/-- The host's `dot_general`, at (p, q): the same sum. -/
theorem dotGeneral_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    Host.dotGeneral d prec a w j = rowDot (fun i => a i) (fun i => w i) (j 0) (j 1) := by
  simp only [Host.dotGeneral]
  rw [Ideal.dotGeneral_apply]
  exact hd.sum_eq (fun i => a i) (fun i => w i) j

end

end Idealize.ShloMosaic.SageSpec

end
-- ==== Proof.Spec.lean ====
/-
  What both programs compute, as functions of whole arrays over the extended reals.

  Stage one, the grouped product: row r of the token matrix X [16384, 4096] belongs to expert e = r / 2048
  (2048 rows per expert), and entry (r, o) of the intermediate matrix is that row against column o of the
  expert's own weight matrix W[e] [4096, 1024], plus the expert's bias B[e, 0, o].

  Stage two, the combination: entry (s, o) of the result is row s of the combine matrix C [8192, 16384]
  against column o of the intermediate matrix.

  The tensor result [4, 2048, 1024] is the [8192, 1024] matrix of stage two with its rows regrouped, and the
  combine matrix is the [8192, 8, 2048] input with its two trailing axes merged; both programs spell those two
  re-layouts with the same cast, so they are carried here as the casts themselves.
-/
import proofs.«133026_j71571335020920_1_alg».proof.Proof.LibSageSpec

noncomputable section

open scoped BigOperators

namespace Cert.Spec

open Idealize.ShloMosaic Idealize.ShloMosaic.ValueIdx Idealize.ShloMosaic.SageSpec

/-- The expert a row of the token matrix belongs to: 2048 consecutive rows per expert. -/
def expertOf (r : Fin 16384) : Fin 8 := ⟨r.val / 2048, by have := r.isLt; omega⟩

/-- The expert's weight matrix as a [4096, 1024] matrix. -/
def expertW (W : (⟨3, ![8, 4096, 1024]⟩ : Shape).Idx → EReal) (e : Fin 8) : Mat 4096 1024 :=
  fun i => W (ix3 e (i 0) (i 1))

/-- Stage one: `flat X W B (r, o) = (∑ k, X (r, k) · W (r / 2048, k, o)) + B (r / 2048, 0, o)`. -/
def flat (X : Mat 16384 4096) (W : (⟨3, ![8, 4096, 1024]⟩ : Shape).Idx → EReal)
    (B : (⟨3, ![8, 1, 1024]⟩ : Shape).Idx → EReal) : Mat 16384 1024 :=
  fun j => rowDot X (expertW W (expertOf (j 0))) (j 0) (j 1) + B (ix3 (expertOf (j 0)) 0 (j 1))

/-- Stage two: `comb C Fl (s, o) = ∑ j, C (s, j) · Fl (j, o)`. -/
def comb (C : Mat 8192 16384) (Fl : Mat 16384 1024) : Mat 8192 1024 :=
  fun i => rowDot C Fl (i 0) (i 1)

theorem flat_apply (X : Mat 16384 4096) (W : (⟨3, ![8, 4096, 1024]⟩ : Shape).Idx → EReal)
    (B : (⟨3, ![8, 1, 1024]⟩ : Shape).Idx → EReal) (r : Fin 16384) (o : Fin 1024) :
    flat X W B (ix2 r o) = (∑ k : Fin 4096, X (ix2 r k) * W (ix3 (expertOf r) k o)) + B (ix3 (expertOf r) 0 o) := rfl

theorem comb_apply (C : Mat 8192 16384) (Fl : Mat 16384 1024) (s : Fin 8192) (o : Fin 1024) :
    comb C Fl (ix2 s o) = ∑ j : Fin 16384, C (ix2 s j) * Fl (ix2 j o) := rfl

end Cert.Spec

end
-- ==== Proof.LibTileSum.lean ====
/-
  Sums taken tile by tile.

  A sum over the first `a * b` naturals is the sum, over `a` consecutive tiles of length `b`, of each tile's
  own sum: `∑ k < a·b, f k = ∑ s < a, ∑ j < b, f (b·s + j)`. Only associativity of `+` is used, so the law
  holds in any additive commutative monoid — in particular on the extended reals, where no finiteness is needed.
  The `Fin` form states the same for a sum over `Fin (a * b)` against a sum over `Fin a × Fin b` spelled as
  an iterated sum, which is how a contraction over a long axis meets the same contraction accumulated
  block by block.
-/
import Mathlib.Algebra.BigOperators.Group.Finset.Basic
import Mathlib.Algebra.BigOperators.Fin

namespace TileSum

open Finset

variable {β : Type*} [AddCommMonoid β]

/-- A sum over `range (a * b)` is the sum over the `a` tiles `[b·s, b·s + b)` of the tiles' sums. -/
theorem sum_range_mul (f : ℕ → β) (a b : ℕ) :
    ∑ k ∈ range (a * b), f k = ∑ s ∈ range a, ∑ j ∈ range b, f (b * s + j) := by
  induction a with
  | zero => simp
  | succ a ih =>
    rw [Nat.succ_mul, sum_range_add, ih, sum_range_succ, Nat.mul_comm a b]

/-- The same with the long sum over `Fin (a * b)` and the tiles over `Fin a` and `Fin b`: `g` is any
    function of the natural index that the two sides agree to read. -/
theorem sum_fin_mul (g : ℕ → β) (a b : ℕ) :
    ∑ k : Fin (a * b), g k.val = ∑ s : Fin a, ∑ j : Fin b, g (b * s.val + j.val) := by
  rw [Fin.sum_univ_eq_sum_range (fun k => g k) (a * b), sum_range_mul g a b,
    ← Fin.sum_univ_eq_sum_range (fun s => ∑ j ∈ range b, g (b * s + j)) a]
  refine Finset.sum_congr rfl fun s _ => ?_
  exact (Fin.sum_univ_eq_sum_range (fun j => g (b * s.val + j)) b).symm

/-- The tiles' sum written over `range a` (as a fold over grid points unrolls it) against the long sum over
    `Fin (a * b)`. -/
theorem sum_range_tiles_eq_sum_fin (g : ℕ → β) (a b : ℕ) :
    ∑ s ∈ range a, ∑ j : Fin b, g (b * s + j.val) = ∑ k : Fin (a * b), g k.val := by
  rw [Fin.sum_univ_eq_sum_range (fun k => g k) (a * b), sum_range_mul g a b]
  refine Finset.sum_congr rfl fun s _ => ?_
  exact Fin.sum_univ_eq_sum_range (fun j => g (b * s + j)) b

end TileSum
-- ==== Proof.Value0.lean ====
/-
  What the first kernel leaves in its output array, at the extended reals.

  The grid is 8 experts × 2 row tiles × 4 tiles of the contracted axis, the last coordinate moving fastest, so point t
  works on rows 1024 · (t / 4) … of the token matrix X, on expert t / 8, and on entries 1024 · (t % 4) … of the
  contracted axis. Read entry by entry, the body's arithmetic is: the cleared accumulator is 0; one step adds to
  the accumulator's entry (p, q) the 1024 products of row p of the token tile against column q of the weight tile (the
  change of format before the product is the identity on extended reals, and a product into a zero accumulator is
  the plain sum); the write-out adds the bias at column q. Along one reduction the accumulator's entry is therefore
  the sum over the tiles done so far of the tiles' own sums, by induction on the point, and at the reduction's last
  point (t % 4 = 3) the four tiles of 1024 make up the whole contraction over 4096 — only associativity of + is used.
  Row 1024 · (t / 4) + p belongs to expert (1024 · (t / 4) + p) / 2048 = t / 8, which is the expert whose weights and
  bias the point reads. So the last point of each reduction writes back its 1024-row tile of
      flat X W B (r, o) = (∑ k, X (r, k) · W (r / 2048, k, o)) + B (r / 2048, 0, o),
  and the sixteen row tiles cover the [16384, 1024] array: row r lies in the tile of point 4 · (r / 1024) + 3.
-/
import proofs.«133026_j71571335020920_1_alg».proof.Proof.KernelIdeal.Region0
import proofs.«133026_j71571335020920_1_alg».proof.Proof.Spec
import proofs.«133026_j71571335020920_1_alg».proof.Proof.LibTileSum
import Idealize.ShloMosaic.Lib.Pipeline.Value
import Idealize.ShloMosaic.Lib.ValueIdx
import Idealize.ShloMosaic.PureOps.Ideal.Laws

noncomputable section

open scoped BigOperators

namespace Cert.KernelIdeal.Val0

open Cert.KernelIdeal Cert.KernelIdeal.Gen Cert.KernelIdeal.Run
open Idealize.ShloMosaic Idealize.ShloMosaic.TcCoe Idealize.SL.Sem
open Idealize.ShloMosaic.ValueIdx Idealize.ShloMosaic.SageSpec
open Idealize.ShloMosaic.Pipeline (Dat)

/-! ## The tile product's dimension numbers: rows by columns -/

theorem tileDot_l0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem tileDot_l1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem tileDot_r0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem tileDot_r1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The tile product contracts axis 1 of its left operand with axis 0 of its right one, 1024 terms. -/
theorem tileDot_plain : PlainDot (n := 1024) (k := 1024) (m := 1024) dot_S1024x1024_S1024x1024_S1024x1024_1_0_0_1_n_n where
  rank := rfl
  size := fun _ => rfl
  l0 := fun i q => tileDot_l0 i q
  l1 := fun i q _ => tileDot_l1 i q
  r0 := fun i q _ => tileDot_r0 i q
  r1 := fun i q => tileDot_r1 i q

/-! ## The body's arithmetic, entry by entry -/

/-- The cleared accumulator is zero at every entry. -/
theorem cleared_at (p q : Fin 1024) : (k0_pay1 (F := Ideal)) (ix2 p q) = 0 := by
  unfold k0_pay1
  rw [shapeCast_self]
  exact Ideal.ofBits_zero_f32

/-- One step of the contraction: the accumulator's entry plus the tile's 1024 products. -/
theorem step_at (x : Vec Ideal S1024x1024 .f32) (w : Vec Ideal S1x1024x1024 .f32) (a : Vec Ideal S1024x1024 .f32)
    (p q : Fin 1024) :
    k0_pay2 x w a (ix2 p q) = a (ix2 p q) + ∑ k : Fin 1024, x (ix2 p k) * w (ix3 0 k q) := by
  unfold k0_pay2
  rw [shapeCast_self]
  rw [addf_apply]
  refine congrArg _ ((matmul_zero_at tileDot_plain none _ _ (ix2 p q)).trans ?_)
  unfold rowDot
  refine Finset.sum_congr rfl fun k _ => ?_
  show x (ix2 p k) * (shapeCast S1024x1024 w shapeCasts_S1x1024x1024_S1024x1024) (ix2 k q) = _
  rw [shapeCast_apply w shapeCasts_S1x1024x1024_S1024x1024 (ix2 k q) (ix3 0 k q) (by
    rewrite [Shape.rowMajor_val_three, Shape.rowMajor_val_two]
    show (0 * 1024 + k.val) * 1024 + q.val = k.val * 1024 + q.val; omega)]

/-- The write-out: the accumulator's entry plus the bias at the column. -/
theorem biased_at (b : Vec Ideal S1x1x1024 .f32) (a : Vec Ideal S1024x1024 .f32) (p q : Fin 1024) :
    k0_pay3 b a (ix2 p q) = a (ix2 p q) + b (ix3 0 0 q) := by
  unfold k0_pay3
  rw [truncf_apply, addf_apply]
  refine congrArg _ ?_
  rw [broadcastTo_apply _ broadcasts_S1x1024_S1024x1024 (ix2 p q) (ix2 0 q) (by
    intro a; match a with
    | ⟨0, _⟩ => rfl
    | ⟨1, _⟩ => rfl)]
  rw [shapeCast_apply _ shapeCasts_S1024_S1x1024 (ix2 0 q) (ix1 q) (by
    rewrite [Shape.rowMajor_val_one, Shape.rowMajor_val_two]; show q.val = 0 * 1024 + q.val; omega)]
  exact shapeCast_apply b shapeCasts_S1x1x1024_S1024 (ix1 q) (ix3 0 0 q) (by
    rewrite [Shape.rowMajor_val_three, Shape.rowMajor_val_one]; show (0 * 1 + 0) * 1024 + q.val = q.val; omega)

/-! ## Where each tile sits in its array -/

/-- The printed index maps over the grid: point `t` is expert `t / 8`, row tile `t / 4` of the token matrix and of the
    result, tile `t % 4` of the contracted axis. -/
theorem tile_index : ∀ t : Fin cfg0.N,
    win0_0.index t (0 : Fin 2) = t.val / 4 ∧ win0_0.index t (1 : Fin 2) = t.val % 4
    ∧ win0_1.index t (0 : Fin 3) = t.val / 8 ∧ win0_1.index t (1 : Fin 3) = t.val % 4 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 2) = t.val / 4 ∧ win0_3.index t (1 : Fin 2) = 0 :=
  (by decide +kernel : ∀ t : Fin grid0.N, _)

section Arrays

variable (V : (c : Dev nD) → (b : Ref sig .tc) → Buf (Elt Ideal) ((c : Thread nD τ).loc b))

/-- The token matrix, the experts' weights and their biases, as the kernel finds them. -/
abbrev tokens (c : Dev nD) : Mat 16384 4096 := V c main_arg0
abbrev weights (c : Dev nD) : (⟨3, ![8, 4096, 1024]⟩ : Shape).Idx → EReal := V c main_arg2
abbrev biases (c : Dev nD) : (⟨3, ![8, 1, 1024]⟩ : Shape).Idx → EReal := V c main_arg3

/-- The tiles of them that point `t` works on. -/
abbrev xtile (c : Dev nD) (t : Fin cfg0.N) : Vec Ideal S1024x1024 .f32 := iblk0 V c 0 t
abbrev wtile (c : Dev nD) (t : Fin cfg0.N) : Vec Ideal S1x1024x1024 .f32 := iblk0 V c 1 t
abbrev btile (c : Dev nD) (t : Fin cfg0.N) : Vec Ideal S1x1x1024 .f32 := iblk0 V c 2 t

/-- Entry (p, k) of the token tile is entry (1024 · (t / 4) + p, 1024 · (t % 4) + k) of the token matrix. -/
theorem xtile_at (c : Dev nD) (t : Fin cfg0.N) (p k : Fin 1024) (r : Fin 16384) (j : Fin 4096)
    (hr : r.val = t.val / 4 * 1024 + p.val) (hj : j.val = t.val % 4 * 1024 + k.val) :
    xtile V c t (ix2 p k) = tokens V c (ix2 r j) := by
  obtain ⟨e0, e1, -⟩ := tile_index t
  show V c main_arg0 (((cfg0.win 0).blk t).view.emb (ix2 p k)) = V c main_arg0 (ix2 r j)
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * k.val = j.val; omega

/-- Entry (0, k, q) of the weight tile is entry (t / 8, 1024 · (t % 4) + k, q) of the weights. -/
theorem wtile_at (c : Dev nD) (t : Fin cfg0.N) (k q : Fin 1024) (e : Fin 8) (j : Fin 4096)
    (he : e.val = t.val / 8) (hj : j.val = t.val % 4 * 1024 + k.val) :
    wtile V c t (ix3 0 k q) = weights V c (ix3 e j q) := by
  obtain ⟨-, -, e2, e3, e4, -⟩ := tile_index t
  show V c main_arg2 (((cfg0.win 1).blk t).view.emb (ix3 0 k q)) = V c main_arg2 (ix3 e j q)
  refine congrArg _ (funext fun a => Fin.ext ?_)
  match a with
  | ⟨0, _⟩ => show win0_1.index t (0 : Fin 3) * 1 + 1 * 0 = e.val; omega
  | ⟨1, _⟩ => show win0_1.index t (1 : Fin 3) * 1024 + 1 * k.val = j.val; omega
  | ⟨2, _⟩ => show win0_1.index t (2 : Fin 3) * 1024 + 1 * q.val = q.val; omega

/-- Entry (0, 0, q) of the bias tile is entry (t / 8, 0, q) of the biases. -/
theorem btile_at (c : Dev nD) (t : Fin cfg0.N) (q : Fin 1024) (e : Fin 8) (he : e.val = t.val / 8) :
    btile V c t (ix3 0 0 q) = biases V c (ix3 e 0 q) := by
  obtain ⟨-, -, -, -, -, e5, e6, e7, -⟩ := tile_index t
  show V c main_arg3 (((cfg0.win 2).blk t).view.emb (ix3 0 0 q)) = V c main_arg3 (ix3 e 0 q)
  refine congrArg _ (funext fun a => Fin.ext ?_)
  match a with
  | ⟨0, _⟩ => show win0_2.index t (0 : Fin 3) * 1 + 1 * 0 = e.val; omega
  | ⟨1, _⟩ => show win0_2.index t (1 : Fin 3) * 1 + 1 * 0 = 0; omega
  | ⟨2, _⟩ => show win0_2.index t (2 : Fin 3) * 1024 + 1 * q.val = q.val; omega

/-! ## The accumulator along a reduction -/

/-- The product of entry `j` of row `r` of the token matrix with entry (`j`, `q`) of expert `e`'s weights, as a function
    of the natural index `j` of the contracted axis (zero past the axis's end, where it is never read). -/
def prodAt (X : Mat 16384 4096) (W : (⟨3, ![8, 4096, 1024]⟩ : Shape).Idx → EReal) (r : Fin 16384) (e : Fin 8)
    (q : Fin 1024) (j : ℕ) : EReal :=
  if h : j < 4096 then X (ix2 r ⟨j, h⟩) * W (ix3 e ⟨j, h⟩ q) else 0

theorem prodAt_lt (X : Mat 16384 4096) (W : (⟨3, ![8, 4096, 1024]⟩ : Shape).Idx → EReal) (r : Fin 16384) (e : Fin 8)
    (q : Fin 1024) (j : Fin 4096) : prodAt X W r e q j.val = X (ix2 r j) * W (ix3 e j q) := by
  unfold prodAt; rw [dif_pos j.isLt]

/-- A product inside the tiles of point `t` is the product at index 1024 · (t % 4) + k of the contracted axis. -/
theorem tile_prod (c : Dev nD) (t : Fin cfg0.N) (p k q : Fin 1024) (r : Fin 16384) (e : Fin 8)
    (hr : r.val = t.val / 4 * 1024 + p.val) (he : e.val = t.val / 8) :
    xtile V c t (ix2 p k) * wtile V c t (ix3 0 k q)
      = prodAt (tokens V c) (weights V c) r e q (1024 * (t.val % 4) + k.val) := by
  have hk : 1024 * (t.val % 4) + k.val < 4096 := by have := k.isLt; omega
  unfold prodAt; rw [dif_pos hk]
  rw [xtile_at V c t p k r ⟨1024 * (t.val % 4) + k.val, hk⟩ hr (by show 1024 * (t.val % 4) + k.val = _; omega),
    wtile_at V c t k q e ⟨1024 * (t.val % 4) + k.val, hk⟩ he (by show 1024 * (t.val % 4) + k.val = _; omega)]

/-- After point `n` the accumulator's entry (p, q) is the sum of the products over the tiles of the contracted axis done so
    far in `n`'s reduction: tiles 0 … n % 4. -/
theorem acc_at (c : Dev nD) (p q : Fin 1024) : ∀ (n : ℕ) (hn : n < cfg0.N) (r : Fin 16384) (e : Fin 8),
    r.val = n / 4 * 1024 + p.val → e.val = n / 8 →
    acc0 V c n hn (ix2 p q)
      = ∑ s ∈ Finset.range (n % 4 + 1), ∑ k : Fin 1024, prodAt (tokens V c) (weights V c) r e q (1024 * s + k.val) := by
  have first : ∀ t : Fin cfg0.N, t.val % 4 = 0 → ∀ (r : Fin 16384) (e : Fin 8),
      r.val = t.val / 4 * 1024 + p.val → e.val = t.val / 8 →
      acc0 V c t.val t.isLt (ix2 p q)
        = ∑ s ∈ Finset.range (t.val % 4 + 1), ∑ k : Fin 1024, prodAt (tokens V c) (weights V c) r e q (1024 * s + k.val) := by
    intro t h r e hr he
    refine (congrFun (acc0_first V c t h) (ix2 p q)).trans ?_
    refine (step_at (xtile V c t) (wtile V c t) (k0_pay1 (F := Ideal)) p q).trans ?_
    rw [cleared_at, zero_add, h, Nat.zero_add, Finset.sum_range_one]
    refine Finset.sum_congr rfl fun k _ => ?_
    have hp := tile_prod V c t p k q r e hr he
    rw [h] at hp
    exact hp
  intro n
  induction n with
  | zero => intro hn r e hr he; exact first ⟨0, hn⟩ rfl r e hr he
  | succ n ih =>
    intro hn r e hr he
    by_cases h : (n + 1) % 4 = 0
    · exact first ⟨n + 1, hn⟩ h r e hr he
    · have hn' : n < cfg0.N := Nat.lt_of_succ_lt hn
      have e1 : acc0 V c (n + 1) hn
          = k0_pay2 (xtile V c ⟨n + 1, hn⟩) (wtile V c ⟨n + 1, hn⟩) (acc0 V c n hn') :=
        acc0_next V c ⟨n + 1, hn⟩ h
      refine (congrFun e1 (ix2 p q)).trans ?_
      refine (step_at (xtile V c ⟨n + 1, hn⟩) (wtile V c ⟨n + 1, hn⟩) (acc0 V c n hn') p q).trans ?_
      have hm : (n + 1) % 4 = n % 4 + 1 := by omega
      rw [ih hn' r e (by omega) (by omega), hm, Finset.sum_range_succ _ (n % 4 + 1)]
      refine congrArg _ (Finset.sum_congr rfl fun k _ => ?_)
      have hp := tile_prod V c ⟨n + 1, hn⟩ p k q r e hr he
      rw [show (⟨n + 1, hn⟩ : Fin cfg0.N).val % 4 = n % 4 + 1 from hm] at hp
      exact hp

/-- At the last point of a reduction the accumulator's entry is the whole contraction: row `r` of the token matrix against
    column `q` of the expert's weights. -/
theorem acc_last (c : Dev nD) (t : Fin cfg0.N) (h : t.val % 4 = 3) (p q : Fin 1024) (r : Fin 16384) (e : Fin 8)
    (hr : r.val = t.val / 4 * 1024 + p.val) (he : e.val = t.val / 8) :
    acc0 V c t.val t.isLt (ix2 p q) = ∑ k : Fin 4096, tokens V c (ix2 r k) * weights V c (ix3 e k q) := by
  rw [acc_at V c p q t.val t.isLt r e hr he, h]
  refine (TileSum.sum_range_tiles_eq_sum_fin (prodAt (tokens V c) (weights V c) r e q) 4 1024).trans ?_
  show ∑ k : Fin 4096, prodAt (tokens V c) (weights V c) r e q k.val = _
  exact Finset.sum_congr rfl fun k _ => prodAt_lt _ _ r e q k

/-! ## From the row tiles to the whole matrix -/

/-- What the last point of a reduction writes back is its row tile of the grouped product with the bias. -/
theorem flushed_eq (c : Dev nD) (t : Fin cfg0.N) (hf : (cfg0.win 3).flush t = true) :
    (dat0 (F := Ideal) V c).flushed 3 t
      = ((cfg0.win 3).blk t).view.read (Elt Ideal) (Cert.Spec.flat (tokens V c) (weights V c) (biases V c)) := by
  have h3 : t.val % 4 = 3 := (flush0_3 t).mp hf
  have hN : t.val < 64 := Nat.lt_of_lt_of_eq t.isLt N_0
  obtain ⟨-, -, -, -, -, -, -, -, e8, e9⟩ := tile_index t
  show (cfg0.win 3).cut (grid0.coords t) ((dat0 (F := Ideal) V c).after 3 t) = _
  rw [after0_3]
  funext y
  obtain ⟨p, q, rfl⟩ : ∃ p q : Fin 1024, y = ix2 p q := ⟨y 0, y 1, eq_ix2 y⟩
  have hrb : t.val / 4 * 1024 + p.val < 16384 := by have := p.isLt; omega
  have heb : t.val / 8 < 8 := by omega
  have hemb : ((cfg0.win 3).blk t).view.emb (ix2 p q) = ix2 (⟨t.val / 4 * 1024 + p.val, hrb⟩ : Fin 16384) q := by
    funext a; apply Fin.ext
    match a with
    | ⟨0, _⟩ => show win0_3.index t (0 : Fin 2) * 1024 + 1 * p.val = t.val / 4 * 1024 + p.val; omega
    | ⟨1, _⟩ => show win0_3.index t (1 : Fin 2) * 1024 + 1 * q.val = q.val; omega
  show k0_pay3 (btile V c t) (acc0 V c t.val t.isLt) (ix2 p q)
    = Cert.Spec.flat (tokens V c) (weights V c) (biases V c) (((cfg0.win 3).blk t).view.emb (ix2 p q))
  rw [hemb, Cert.Spec.flat_apply, biased_at,
    acc_last V c t h3 p q ⟨t.val / 4 * 1024 + p.val, hrb⟩ ⟨t.val / 8, heb⟩ rfl rfl,
    btile_at V c t q ⟨t.val / 8, heb⟩ rfl]
  have hx : Cert.Spec.expertOf (⟨t.val / 4 * 1024 + p.val, hrb⟩ : Fin 16384) = (⟨t.val / 8, heb⟩ : Fin 8) :=
    Fin.ext (by show (t.val / 4 * 1024 + p.val) / 2048 = t.val / 8; have := p.isLt; omega)
  rw [hx]

/-- Every entry of the result lies in the row tile written back by the last point of its tile's reduction. -/
theorem covered (i : S16384x1024.Idx) :
    ∃ t : Fin cfg0.N, (cfg0.win 3).flush t = true ∧ i ∈ ((cfg0.win 3).blk t).view.set := by
  have h0 : (i 0).val < 16384 := (i 0).isLt
  have h1 : (i 1).val < 1024 := (i 1).isLt
  have hlt : (i 0).val / 1024 * 4 + 3 < cfg0.N := by rw [show cfg0.N = 64 from N_0]; omega
  obtain ⟨-, -, -, -, -, -, -, -, e8, e9⟩ := tile_index ⟨(i 0).val / 1024 * 4 + 3, hlt⟩
  have e8' : win0_3.index ⟨(i 0).val / 1024 * 4 + 3, hlt⟩ (0 : Fin 2) = ((i 0).val / 1024 * 4 + 3) / 4 := e8
  refine ⟨⟨(i 0).val / 1024 * 4 + 3, hlt⟩, (flush0_3 _).mpr (by show ((i 0).val / 1024 * 4 + 3) % 4 = 3; omega), ?_⟩
  show i ∈ ((View.whole main_v0).slice (win0_3.rect ⟨(i 0).val / 1024 * 4 + 3, hlt⟩)).set
  rw [View.set_slice_whole, Rect.mem_set_unit]
  intro a
  match a with
  | ⟨0, _⟩ =>
    show win0_3.index ⟨(i 0).val / 1024 * 4 + 3, hlt⟩ (0 : Fin 2) * 1024 ≤ (i 0).val
      ∧ (i 0).val < win0_3.index ⟨(i 0).val / 1024 * 4 + 3, hlt⟩ (0 : Fin 2) * 1024 + 1024
    omega
  | ⟨1, _⟩ =>
    show win0_3.index ⟨(i 0).val / 1024 * 4 + 3, hlt⟩ (1 : Fin 2) * 1024 ≤ (i 1).val
      ∧ (i 1).val < win0_3.index ⟨(i 0).val / 1024 * 4 + 3, hlt⟩ (1 : Fin 2) * 1024 + 1024
    omega

end Arrays

/-- THE FIRST KERNEL'S RESULT: after its last point the intermediate array holds the grouped product with the bias,
    `flat X W B (r, o) = (∑ k, X (r, k) · W (r / 2048, k, o)) + B (r / 2048, 0, o)`, of the arrays the kernel found. -/
theorem flat_final (V : (c : Dev nD) → (b : Ref sig .tc) → Buf (Elt Ideal) ((c : Thread nD τ).loc b)) (c : Dev nD) :
    (dat0 (F := Ideal) V c).arrAt 3 cfg0.N = Cert.Spec.flat (V c main_arg0) (V c main_arg2) (V c main_arg3) :=
  (dat0 (F := Ideal) V c).arrAt_eq_of_cover 3 (Cert.Spec.flat (tokens V c) (weights V c) (biases V c))
    (fun t hf => flushed_eq V c t hf) covered

end Cert.KernelIdeal.Val0

end
-- ==== Proof.Value1.lean ====
/-
  What the second kernel leaves in its result array, over the extended reals.

  The kernel's grid is 16 row tiles × 8 tiles of the contracted axis, the contracted coordinate moving fastest: point t
  works on rows (t / 8)·512 … of the result and on columns 2048·(t % 8) … of the combine matrix, against the same rows
  of the intermediate matrix. Its accumulator is cleared where t % 8 = 0 and then gains, at every point, the product
  of the point's combine tile [512, 2048] with its intermediate tile [2048, 1024]; so after the point with t % 8 = j it
  holds, at (p, q), the first j + 1 tiles of the contraction of entry ((t / 8)·512 + p, q). After the eighth tile
  that is the whole contraction over the 16384 terms — a sum over 8·2048 terms taken tile by tile, which needs only
  associativity of + — and the tile is written back as the block of the result at rows (t / 8)·512 …, all 1024
  columns. The sixteen blocks written back tile the [8192, 1024] result, which therefore ends holding the combination
  `C · Fl` of the two matrices the region found. A change of float format is the identity at the extended reals, so
  the bf16 intermediate matrix and the truncation of the combine tile contribute nothing.
-/
import proofs.«133026_j71571335020920_1_alg».proof.Proof.KernelIdeal.Region1
import proofs.«133026_j71571335020920_1_alg».proof.Proof.Spec
import proofs.«133026_j71571335020920_1_alg».proof.Proof.LibTileSum
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val1

open Cert.KernelIdeal Cert.KernelIdeal.Gen Cert.KernelIdeal.Run
open Idealize.ShloMosaic Idealize.ShloMosaic.TcCoe Idealize.ShloMosaic.ValueIdx Idealize.ShloMosaic.SageSpec
open Idealize.ShloMosaic.Pipeline (Dat Cfg Window)

/-- The tile product's dimension numbers are the plain rows-by-columns ones. -/
theorem plainDot1 : PlainDot dot_S512x2048_S2048x1024_S512x1024_1_0_0_1_n_n where
  rank := rfl
  size := fun _ => rfl
  l0 := fun i q => by
    unfold DotDims.lhsIdx
    rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
    rfl
  l1 := fun i q _ => dot_S512x2048_S2048x1024_S512x1024_1_0_0_1_n_n.lhsIdx_val_of_single rfl i q
  r0 := fun i q _ => dot_S512x2048_S2048x1024_S512x1024_1_0_0_1_n_n.rhsIdx_val_of_single rfl i q
  r1 := fun i q => by
    unfold DotDims.rhsIdx
    rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
    rfl

/-- The cleared accumulator holds zero everywhere. -/
theorem pay1_at (p : Fin 512) (q : Fin 1024) : k1_pay1 (F := Ideal) (ix2 p q) = 0 := by
  unfold k1_pay1
  refine (congrFun (shapeCast_self _ _) (ix2 p q)).trans ?_
  exact Ideal.ofBits_zero_f32

/-- One step of the accumulation: the accumulator's entry plus row `p` of the combine tile against column `q` of
    the intermediate tile. -/
theorem pay2_at (x : Vec Ideal S512x2048 .f32) (y : Vec Ideal S2048x1024 .bf16) (a : Vec Ideal S512x1024 .f32)
    (p : Fin 512) (q : Fin 1024) :
    k1_pay2 x y a (ix2 p q) = a (ix2 p q) + ∑ j : Fin 2048, x (ix2 p j) * y (ix2 j q) := by
  unfold k1_pay2
  refine (congrFun (shapeCast_self _ _) (ix2 p q)).trans ?_
  rw [shapeCast_self x, shapeCast_self y]
  show a (ix2 p q) + FloatOps.matmul (F := Ideal) dot_S512x2048_S2048x1024_S512x1024_1_0_0_1_n_n none (truncf .bf16 x bitsLt_bf16_f32) y (constant S512x1024 .f32 0x00000000#32) (ix2 p q) = _
  rw [matmul_zero_at plainDot1]
  rfl

variable (V : (c : Dev nD) → (b : Ref sig .tc) → Buf (Elt Ideal) ((c : Thread nD τ).loc b))

/-- Where each window's block sits at point `t`: the combine tile at block (t / 8, t % 8), the intermediate tile at
    block (t % 8, 0), the result tile at block (t / 8, 0). Decided over the grid. -/
theorem block_index : ∀ t : Fin cfg1.N, win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-- The combine tile and the intermediate tile at point `t`, read off their arrays as the region finds them. -/
abbrev cTile (c : Dev nD) (t : Fin cfg1.N) : Vec Ideal S512x2048 .f32 := iblk1 V c 0 t
abbrev fTile (c : Dev nD) (t : Fin cfg1.N) : Vec Ideal S2048x1024 .bf16 := iblk1 V c 1 t

/-- The combine tile at point `t`, entry (p, j): the combine matrix at row (t / 8)·512 + p, column 2048·(t % 8) + j. -/
theorem combTile_at (c : Dev nD) (t : Fin cfg1.N) (p : Fin 512) (j : Fin 2048)
    (hr : t.val / 8 * 512 + p.val < 8192) (hc : 2048 * (t.val % 8) + j.val < 16384) :
    cTile V c t (ix2 p j)
      = (V c main_v1 : S8192x16384.Idx → EReal) (ix2 ⟨t.val / 8 * 512 + p.val, hr⟩ ⟨2048 * (t.val % 8) + j.val, hc⟩) := by
  obtain ⟨e0, e1, -, -, -, -⟩ := block_index t
  show V c main_v1 (((cfg1.win 0).blk t).view.emb (ix2 p j)) = V c main_v1 _
  refine congrArg (V c main_v1) ?_
  funext a; apply Fin.ext
  match a with
  | ⟨0, _⟩ => show win1_0.index t (0 : Fin 2) * 512 + 1 * p.val = t.val / 8 * 512 + p.val; omega
  | ⟨1, _⟩ => show win1_0.index t (1 : Fin 2) * 2048 + 1 * j.val = 2048 * (t.val % 8) + j.val; omega

/-- The intermediate tile at point `t`, entry (j, q): the intermediate matrix at row 2048·(t % 8) + j, column q. -/
theorem flatTile_at (c : Dev nD) (t : Fin cfg1.N) (j : Fin 2048) (q : Fin 1024)
    (hr : 2048 * (t.val % 8) + j.val < 16384) :
    fTile V c t (ix2 j q)
      = (V c main_v0 : S16384x1024.Idx → EReal) (ix2 ⟨2048 * (t.val % 8) + j.val, hr⟩ q) := by
  obtain ⟨-, -, e2, e3, -, -⟩ := block_index t
  show V c main_v0 (((cfg1.win 1).blk t).view.emb (ix2 j q)) = V c main_v0 _
  refine congrArg (V c main_v0) ?_
  funext a; apply Fin.ext
  match a with
  | ⟨0, _⟩ => show win1_1.index t (0 : Fin 2) * 2048 + 1 * j.val = 2048 * (t.val % 8) + j.val; omega
  | ⟨1, _⟩ => show win1_1.index t (1 : Fin 2) * 1024 + 1 * q.val = q.val; omega

/-- The grid has 128 points. -/
theorem point_lt (t : Fin cfg1.N) : t.val < 128 := lt_of_lt_of_eq t.isLt N_1

/-- The row of the result matrix that row `p` of point `t`'s result tile is: (t / 8)·512 + p. -/
def tileRow (t : Fin cfg1.N) (p : Fin 512) : Fin 8192 :=
  ⟨t.val / 8 * 512 + p.val, by have := point_lt t; have := p.isLt; omega⟩

/-- The combine matrix and the intermediate matrix as the region finds them. -/
abbrev cMat (c : Dev nD) : Mat 8192 16384 := V c main_v1
abbrev fMat (c : Dev nD) : Mat 16384 1024 := V c main_v0

/-- Term `k` of entry (r, q)'s contraction, as a function of the natural index (zero past the axis's end, which no
    sum below reaches). -/
def term (c : Dev nD) (r : Fin 8192) (q : Fin 1024) (k : ℕ) : EReal :=
  if h : k < 16384 then cMat V c (ix2 r ⟨k, h⟩) * fMat V c (ix2 ⟨k, h⟩ q) else 0

/-- Point `t`'s tile product at (p, q) is tile `t % 8` of the contraction of entry (row of p, q). -/
theorem tile_sum (c : Dev nD) (t : Fin cfg1.N) (p : Fin 512) (q : Fin 1024) :
    ∑ j : Fin 2048, cTile V c t (ix2 p j) * fTile V c t (ix2 j q)
      = ∑ k : Fin 2048, term V c (tileRow t p) q (2048 * (t.val % 8) + k.val) := by
  refine Finset.sum_congr rfl fun k _ => ?_
  have ht := point_lt t
  have hp := p.isLt
  have hk := k.isLt
  have hr : t.val / 8 * 512 + p.val < 8192 := by omega
  have hc : 2048 * (t.val % 8) + k.val < 16384 := by omega
  unfold term
  rw [dif_pos hc, combTile_at V c t p k hr hc, flatTile_at V c t k q hc]
  rfl

/-- At the first tile of a reduction the accumulator is the first tile's sum. -/
theorem acc_first_at (c : Dev nD) (t : Fin cfg1.N) (h : t.val % 8 = 0) (p : Fin 512) (q : Fin 1024) :
    acc1 V c t.val t.isLt (ix2 p q)
      = ∑ s ∈ Finset.range (t.val % 8 + 1), ∑ k : Fin 2048, term V c (tileRow t p) q (2048 * s + k.val) := by
  refine (congrFun (acc1_first V c t h) (ix2 p q)).trans ?_
  refine (pay2_at (cTile V c t) (fTile V c t) (k1_pay1 (F := Ideal)) p q).trans ?_
  rw [pay1_at, zero_add, tile_sum V c t p q, h, Nat.zero_add, Finset.sum_range_one]

/-- At a later tile it is the earlier tiles' sums plus this tile's. -/
theorem acc_next_at (c : Dev nD) (t : Fin cfg1.N) (h : ¬t.val % 8 = 0) (p : Fin 512) (q : Fin 1024)
    (hn : t.val - 1 < cfg1.N)
    (ih : acc1 V c (t.val - 1) hn (ix2 p q)
      = ∑ s ∈ Finset.range ((t.val - 1) % 8 + 1), ∑ k : Fin 2048, term V c (tileRow ⟨t.val - 1, hn⟩ p) q (2048 * s + k.val)) :
    acc1 V c t.val t.isLt (ix2 p q)
      = ∑ s ∈ Finset.range (t.val % 8 + 1), ∑ k : Fin 2048, term V c (tileRow t p) q (2048 * s + k.val) := by
  refine (congrFun (acc1_next V c t h) (ix2 p q)).trans ?_
  refine (pay2_at (cTile V c t) (fTile V c t) (acc1 V c (t.val - 1) hn) p q).trans ?_
  have e1 : (t.val - 1) % 8 + 1 = t.val % 8 := by omega
  have e2 : tileRow ⟨t.val - 1, hn⟩ p = tileRow t p := Fin.ext (by
    show (t.val - 1) / 8 * 512 + p.val = t.val / 8 * 512 + p.val; omega)
  rw [ih, tile_sum V c t p q, e1, e2, Finset.sum_range_succ]

/-- The accumulator after point `n`: the first `n % 8 + 1` tiles of each entry's contraction. -/
theorem acc_at (c : Dev nD) : ∀ (n : ℕ) (hn : n < cfg1.N) (p : Fin 512) (q : Fin 1024),
    acc1 V c n hn (ix2 p q)
      = ∑ s ∈ Finset.range (n % 8 + 1), ∑ k : Fin 2048, term V c (tileRow ⟨n, hn⟩ p) q (2048 * s + k.val) := by
  intro n
  induction n with
  | zero => intro hn p q; exact acc_first_at V c ⟨0, hn⟩ rfl p q
  | succ m ih =>
    intro hn p q
    by_cases h : (m + 1) % 8 = 0
    · exact acc_first_at V c ⟨m + 1, hn⟩ h p q
    · exact acc_next_at V c ⟨m + 1, hn⟩ h p q (Nat.lt_of_succ_lt hn) (ih (Nat.lt_of_succ_lt hn) p q)

/-- After the last tile of a reduction the accumulator holds the combination's entries. -/
theorem acc_last_at (c : Dev nD) (t : Fin cfg1.N) (h7 : t.val % 8 = 7) (p : Fin 512) (q : Fin 1024) :
    acc1 V c t.val t.isLt (ix2 p q) = Cert.Spec.comb (cMat V c) (fMat V c) (ix2 (tileRow t p) q) := by
  rw [acc_at V c t.val t.isLt p q, h7, Cert.Spec.comb_apply]
  refine (TileSum.sum_range_tiles_eq_sum_fin (term V c (tileRow t p) q) 8 2048).trans ?_
  show ∑ k : Fin 16384, term V c (tileRow t p) q k.val = _
  refine Finset.sum_congr rfl fun k _ => ?_
  unfold term
  rw [dif_pos k.isLt]

/-- A tile whose entry (p, q) is a matrix's entry at (row of p, q), written back at point `t`, is point `t`'s block
    of that matrix: the result window's block at `t` starts at row (t / 8)·512, column 0. -/
theorem block_of_rows (t : Fin cfg1.N) (G : Mat 8192 1024) (A : S512x1024.Idx → EReal)
    (hA : ∀ (p : Fin 512) (q : Fin 1024), A (ix2 p q) = G (ix2 (tileRow t p) q)) :
    (cfg1.win 2).cut (grid1.coords t) A = ((cfg1.win 2).blk t).view.read (Elt Ideal) G := by
  obtain ⟨-, -, -, -, e4, e5⟩ := block_index t
  funext y
  show A ((cfg1.win 2).xinj (grid1.coords t) y) = G (((cfg1.win 2).blk t).view.emb y)
  have hy0 : (y 0).val < 512 := (y 0).isLt
  have hy1 : (y 1).val < 1024 := (y 1).isLt
  have e : ((cfg1.win 2).xinj (grid1.coords t) y : S512x1024.Idx) = ix2 ⟨(y 0).val, hy0⟩ ⟨(y 1).val, hy1⟩ :=
    funext fun a => Fin.ext (by match a with | ⟨0, _⟩ => rfl | ⟨1, _⟩ => rfl)
  rw [e, hA]
  refine congrArg G ?_
  funext a; apply Fin.ext
  match a with
  | ⟨0, _⟩ => show t.val / 8 * 512 + (y 0).val = win1_2.index t (0 : Fin 2) * 512 + 1 * (y 0).val; omega
  | ⟨1, _⟩ => show (y 1).val = win1_2.index t (1 : Fin 2) * 1024 + 1 * (y 1).val; omega

/-- What a point that finishes a reduction writes back is its block of the combination. -/
theorem flushed_eq (c : Dev nD) (t : Fin cfg1.N) (hf : (cfg1.win 2).flush t = true) :
    (dat1 (F := Ideal) V c).flushed 2 t
      = ((cfg1.win 2).blk t).view.read (Elt Ideal) (Cert.Spec.comb (V c main_v1) (V c main_v0)) := by
  have h7 : t.val % 8 = 7 := (flush1_2 t).mp hf
  show (cfg1.win 2).cut (grid1.coords t) ((dat1 (F := Ideal) V c).after 2 t) = _
  rw [after1_2]
  exact block_of_rows t (Cert.Spec.comb (cMat V c) (fMat V c)) (acc1 V c t.val t.isLt) (acc_last_at V c t h7)

/-- An index of the result matrix is in point `t`'s block iff each coordinate is in the block's range on its axis. -/
theorem mem_block (t : Fin cfg1.N) (i : S8192x1024.Idx) :
    i ∈ ((cfg1.win 2).blk t).view.set ↔ ∀ a : Fin 2, win1_2.index t a * S512x1024.size a ≤ (i a).val ∧ (i a).val < win1_2.index t a * S512x1024.size a + S512x1024.size a := by
  show i ∈ ((View.whole main_v2).slice (win1_2.rect t)).set ↔ _
  rw [View.set_slice_whole, Rect.mem_set_unit]
  exact Iff.rfl

/-- Row `s` of the result matrix lies in the block written back at the last point of row tile `s / 512`. -/
theorem cover (i : S8192x1024.Idx) :
    ∃ t : Fin cfg1.N, (cfg1.win 2).flush t = true ∧ i ∈ ((cfg1.win 2).blk t).view.set := by
  have h0 : (i 0).val < 8192 := (i 0).isLt
  have h1 : (i 1).val < 1024 := (i 1).isLt
  have hN : cfg1.N = 128 := N_1
  have ht : (i 0).val / 512 * 8 + 7 < cfg1.N := by rw [hN]; omega
  refine ⟨⟨(i 0).val / 512 * 8 + 7, ht⟩, (flush1_2 _).mpr (by show ((i 0).val / 512 * 8 + 7) % 8 = 7; omega), ?_⟩
  obtain ⟨-, -, -, -, e4, e5⟩ := block_index ⟨(i 0).val / 512 * 8 + 7, ht⟩
  have e4' : win1_2.index ⟨(i 0).val / 512 * 8 + 7, ht⟩ (0 : Fin 2) = ((i 0).val / 512 * 8 + 7) / 8 := e4
  rw [mem_block]
  intro a
  match a with
  | ⟨0, _⟩ =>
    show win1_2.index ⟨(i 0).val / 512 * 8 + 7, ht⟩ (0 : Fin 2) * 512 ≤ (i 0).val ∧ (i 0).val < win1_2.index ⟨(i 0).val / 512 * 8 + 7, ht⟩ (0 : Fin 2) * 512 + 512
    omega
  | ⟨1, _⟩ =>
    show win1_2.index ⟨(i 0).val / 512 * 8 + 7, ht⟩ (1 : Fin 2) * 1024 ≤ (i 1).val ∧ (i 1).val < win1_2.index ⟨(i 0).val / 512 * 8 + 7, ht⟩ (1 : Fin 2) * 1024 + 1024
    omega

/-- THE RESULT ARRAY after the second kernel: the combination of the combine matrix and the intermediate matrix as the
    region finds them — each row tile written once, after its eight tiles of the contracted axis are summed. -/
theorem comb_final (c : Dev nD) :
    (dat1 (F := Ideal) V c).arrAt 2 cfg1.N = Cert.Spec.comb (V c main_v1) (V c main_v0) :=
  (dat1 (F := Ideal) V c).arrAt_eq_of_cover 2 (Cert.Spec.comb (V c main_v1) (V c main_v0))
    (fun t hf => flushed_eq V c t hf) (fun i => cover i)

end Cert.KernelIdeal.Val1

end
-- ==== Proof.RefValue.lean ====
/-
  The reference program's result is the specification.

  The reference spells stage one as a batched product over experts: the token matrix [16384, 4096] is regrouped as
  [8, 2048, 4096] (expert, row within the expert, feature), multiplied expert by expert against W [8, 4096, 1024], the
  bias B [8, 1, 1024] is repeated along the rows and added, and the [8, 2048, 1024] result is regrouped (through a
  unit axis and a swap of that unit axis with the expert axis, which moves no entry) to the [16384, 1024] matrix.
  Row r of that matrix is (expert r / 2048, row r % 2048) of the batched tensor, and (expert, row) of the regrouped
  token matrix is row expert * 2048 + row of X: the round trip gives back row r, so entry (r, o) is
  (∑ k, X (r, k) · W (r / 2048, k, o)) + B (r / 2048, 0, o), the specification's stage one.

  Stage two is a plain product of the merged combine matrix against that matrix, and the result is regrouped by the
  same cast as the specification carries.
-/
import proofs.«133026_j71571335020920_1_alg».proof.Proof.Gen.ReferenceIdeal.Read
import proofs.«133026_j71571335020920_1_alg».proof.Proof.Spec

noncomputable section

open scoped BigOperators

namespace Cert.RefValue

open Cert.ReferenceIdeal Cert.ReferenceIdeal.Read Idealize.ShloMosaic Idealize.ShloMosaic.ValueIdx
  Idealize.ShloMosaic.SageSpec Cert.Spec

/-- The row within its expert of a row of the token matrix. -/
def rowIn (r : Fin 16384) : Fin 2048 := ⟨r.val % 2048, Nat.mod_lt _ (by decide)⟩

/-! ## The index maps of the re-layouts, at coordinates -/

/-- Entry (r, o) of the [16384, 1024] matrix is entry (0, r / 2048, r % 2048, o) of the [1, 8, 2048, 1024] tensor. -/
theorem split_row (r : Fin 16384) (o : Fin 1024) :
    idx_main_v6 (ix2 r o) = ix4 (0 : Fin 1) (expertOf r) (rowIn r) o := by
  have hr := r.isLt
  have ho := o.isLt
  exact funext fun a => Fin.ext (by
    match a with
    | ⟨0, _⟩ => rfl
    | ⟨1, _⟩ => show (r.val * 1024 + o.val) / 2097152 % 8 = r.val / 2048; omega
    | ⟨2, _⟩ => show (r.val * 1024 + o.val) / 1024 % 2048 = r.val % 2048; omega
    | ⟨3, _⟩ => show (r.val * 1024 + o.val) % 1024 = o.val; omega)

/-- The swap of the unit axis with the expert axis. -/
theorem swap_unit (z : Fin 1) (e : Fin 8) (p : Fin 2048) (o : Fin 1024) :
    idx_main_v5 (ix4 z e p o) = ix4 e z p o :=
  funext fun a => Fin.ext (by
    match a with
    | ⟨0, _⟩ => rfl
    | ⟨1, _⟩ => rfl
    | ⟨2, _⟩ => rfl
    | ⟨3, _⟩ => rfl)

/-- Dropping the unit axis moves no entry. -/
theorem drop_unit (e : Fin 8) (z : Fin 1) (p : Fin 2048) (o : Fin 1024) :
    idx_main_v4 (ix4 e z p o) = ix3 e p o := by
  have he := e.isLt
  have hz := z.isLt
  have hp := p.isLt
  have ho := o.isLt
  exact funext fun a => Fin.ext (by
    match a with
    | ⟨0, _⟩ => show (((e.val * 1 + z.val) * 2048 + p.val) * 1024 + o.val) / 2097152 = e.val; omega
    | ⟨1, _⟩ => show (((e.val * 1 + z.val) * 2048 + p.val) * 1024 + o.val) / 1024 % 2048 = p.val; omega
    | ⟨2, _⟩ => show (((e.val * 1 + z.val) * 2048 + p.val) * 1024 + o.val) % 1024 = o.val; omega)

/-- Entry (r, o) of the [16384, 1024] matrix is entry (r / 2048, r % 2048, o) of the batched [8, 2048, 1024] tensor. -/
theorem batched_idx (r : Fin 16384) (o : Fin 1024) :
    idx_main_v4 (idx_main_v5 (idx_main_v6 (ix2 r o))) = ix3 (expertOf r) (rowIn r) o := by
  rw [split_row, swap_unit, drop_unit]

/-- Row r % 2048 of expert r / 2048 in the regrouped token matrix is row r of the token matrix. -/
theorem token_idx (r : Fin 16384) (o : Fin 1024) (k : Fin 4096) :
    idx_main_v0 (lidx_main_v1 (ix3 (expertOf r) (rowIn r) o) k) = ix2 r k := by
  have hr := r.isLt
  have hk := k.isLt
  exact funext fun a => Fin.ext (by
    match a with
    | ⟨0, _⟩ => show ((r.val / 2048 * 2048 + r.val % 2048) * 4096 + k.val) / 4096 = r.val; omega
    | ⟨1, _⟩ => show ((r.val / 2048 * 2048 + r.val % 2048) * 4096 + k.val) % 4096 = k.val; omega)

/-- The weight read by the batched product at (e, p, o) and contraction coordinate k is W (e, k, o). -/
theorem weight_idx (e : Fin 8) (p : Fin 2048) (o : Fin 1024) (k : Fin 4096) :
    ridx_main_v1 (ix3 e p o) k = ix3 e k o :=
  funext fun a => Fin.ext (by
    match a with
    | ⟨0, _⟩ => rfl
    | ⟨1, _⟩ => rfl
    | ⟨2, _⟩ => rfl)

/-- The repeated bias at (e, p, o) is B (e, 0, o). -/
theorem bias_idx (e : Fin 8) (p : Fin 2048) (o : Fin 1024) :
    idx_main_v2 (ix3 e p o) = ix3 e (0 : Fin 1) o :=
  funext fun a => Fin.ext (by
    match a with
    | ⟨0, _⟩ => rfl
    | ⟨1, _⟩ => rfl
    | ⟨2, _⟩ => rfl)

/-! ## Stage one -/

/-- The reference's intermediate matrix at (r, o) is the specification's stage one at (r, o). -/
theorem stage_one_at (X : (⟨S16384x4096, .f32⟩ : BufTy).Contents (Elt Ideal))
    (W : (⟨S8x4096x1024, .f32⟩ : BufTy).Contents (Elt Ideal)) (B : (⟨S8x1x1024, .f32⟩ : BufTy).Contents (Elt Ideal))
    (r : Fin 16384) (o : Fin 1024) :
    val_main_v6 (F := Ideal) X W B (ix2 r o) = flat X W B (ix2 r o) := by
  rw [val_main_v6_apply, val_main_v5_apply, val_main_v4_apply, batched_idx, val_main_v3_apply, val_main_v1_apply,
    val_main_v2_apply, bias_idx, flat_apply, Ideal.addf_def]
  congr 1
  refine Finset.sum_congr rfl fun k _ => ?_
  rw [val_main_v0_apply, token_idx, weight_idx]

/-- The reference's intermediate matrix is the specification's stage one. -/
theorem stage_one (X : (⟨S16384x4096, .f32⟩ : BufTy).Contents (Elt Ideal))
    (W : (⟨S8x4096x1024, .f32⟩ : BufTy).Contents (Elt Ideal)) (B : (⟨S8x1x1024, .f32⟩ : BufTy).Contents (Elt Ideal)) :
    val_main_v6 (F := Ideal) X W B = flat X W B := by
  funext j
  obtain ⟨r, o, rfl⟩ : ∃ r o, j = ix2 r o := ⟨j 0, j 1, eq_ix2 j⟩
  exact stage_one_at X W B r o

/-! ## Stage two -/

/-- The reference's product of the merged combine matrix against the intermediate matrix is the specification's
    stage two of the same two matrices. -/
theorem stage_two (X : (⟨S16384x4096, .f32⟩ : BufTy).Contents (Elt Ideal))
    (CW : (⟨S8192x8x2048, .f32⟩ : BufTy).Contents (Elt Ideal))
    (W : (⟨S8x4096x1024, .f32⟩ : BufTy).Contents (Elt Ideal)) (B : (⟨S8x1x1024, .f32⟩ : BufTy).Contents (Elt Ideal)) :
    val_main_v8 (F := Ideal) X CW W B = comb (val_main_v7 (F := Ideal) CW) (val_main_v6 (F := Ideal) X W B) := by
  funext i
  obtain ⟨s, o, rfl⟩ : ∃ s o, i = ix2 s o := ⟨i 0, i 1, eq_ix2 i⟩
  rw [val_main_v8_apply, comb_apply]
  refine Finset.sum_congr rfl fun k _ => ?_
  have el : lidx_main_v8 (ix2 s o) k = ix2 s k := funext fun a => Fin.ext (by
    match a with
    | ⟨0, _⟩ => rfl
    | ⟨1, _⟩ => rfl)
  have er : ridx_main_v8 (ix2 s o) k = ix2 k o := funext fun a => Fin.ext (by
    match a with
    | ⟨0, _⟩ => rfl
    | ⟨1, _⟩ => rfl)
  rw [el, er]

/-! ## The result -/

/-- The reference program's result: the specification's stage two of the merged combine matrix and stage one, its
    rows regrouped. -/
theorem result_eq
    (X : (⟨Cert.ReferenceIdeal.S16384x4096, .f32⟩ : BufTy).Contents (Elt Ideal)) (CW : (⟨Cert.ReferenceIdeal.S8192x8x2048, .f32⟩ : BufTy).Contents (Elt Ideal))
    (W : (⟨Cert.ReferenceIdeal.S8x4096x1024, .f32⟩ : BufTy).Contents (Elt Ideal)) (B : (⟨Cert.ReferenceIdeal.S8x1x1024, .f32⟩ : BufTy).Contents (Elt Ideal)) :
    Cert.ReferenceIdeal.Read.val_main_v9 (F := Ideal) X CW W B
      = shapeCast Cert.ReferenceIdeal.S4x2048x1024
          (Cert.Spec.comb (shapeCast Cert.ReferenceIdeal.S8192x16384 CW Cert.ReferenceIdeal.Gen.shapeCasts_S8192x8x2048_S8192x16384) (Cert.Spec.flat X W B))
          Cert.ReferenceIdeal.Gen.shapeCasts_S8192x1024_S4x2048x1024 := by
  unfold val_main_v9
  rw [stage_two, stage_one]
  rfl

end Cert.RefValue

end
-- ==== Proof.lean ====
/-
  A mixture-of-experts layer in two matrix products, against its plain reference: equal over the extended reals.

  Stage one: each of 8 experts multiplies its 2048 tokens (rows of X [16384, 4096]) by its own weight matrix
  (W[e] [4096, 1024]) and adds its bias row: entry (r, o) of the intermediate matrix is
  (∑ k, X (r, k) · W (r / 2048, k, o)) + B (r / 2048, 0, o). Stage two: the combine weights, re-laid as a matrix
  C [8192, 16384], multiply the intermediate matrix, and the [8192, 1024] product is re-laid as the [4, 2048, 1024] result.

  The kernel computes stage one on a grid of 8 × 2 × 4 tiles and stage two on a grid of 16 × 8 tiles, each contraction
  accumulated tile by tile in a scratch accumulator that is cleared at the first tile and written out at the last; the
  reference computes both products whole. At the ideal instance a change of float format is the identity and the two
  programs differ only in how the contractions' sums are grouped: the sum over 4096 (over 16384) terms is the sum of
  its 4 (its 8) consecutive tiles' sums, which holds in any commutative monoid, so no finiteness of the inputs is
  used. The ideal pass rewrote nothing, so the idealization is the kernel's own text read at the ideal instance.

  Both kernel programs run from launch to return with every buffer's contents named at every boundary (one text,
  generic in the float instance, laid out for each program); the frames are that run read at the arguments, and the
  kernel's result is that run read at the result buffer. The reference's run and its result stage by stage are the
  generated modules'; that its result is the specification, and that each kernel's output array is its stage of the
  specification, are proved in modules of their own.
-/
import proofs.«133026_j71571335020920_1_alg».proof.Defs
import proofs.«133026_j71571335020920_1_alg».proof.Proof.Gen.Kernel
import proofs.«133026_j71571335020920_1_alg».proof.Proof.Gen.KernelIdeal
import proofs.«133026_j71571335020920_1_alg».proof.Proof.Gen.ReferenceIdeal
import proofs.«133026_j71571335020920_1_alg».proof.Proof.Gen.Pre_finite_inputs
import proofs.«133026_j71571335020920_1_alg».proof.Proof.Gen.ReferenceIdeal.Run
import proofs.«133026_j71571335020920_1_alg».proof.Proof.Gen.ReferenceIdeal.Read
import proofs.«133026_j71571335020920_1_alg».proof.Proof.Kernel.Main
import proofs.«133026_j71571335020920_1_alg».proof.Proof.KernelIdeal.Main
import proofs.«133026_j71571335020920_1_alg».proof.Proof.Value0
import proofs.«133026_j71571335020920_1_alg».proof.Proof.Value1
import proofs.«133026_j71571335020920_1_alg».proof.Proof.RefValue
import Idealize.ShloMosaic.Adequacy
import Idealize.ShloMosaic.Init

noncomputable section

/-! ## The kernel's result as a function of the launch memory -/

namespace Cert.KernelIdeal.Result

open Cert.KernelIdeal Cert.KernelIdeal.Gen Cert.KernelIdeal.Run
open Idealize.ShloMosaic Idealize.ShloMosaic.TcCoe Idealize.SL.Sem

/-- At the return the result buffer holds the specification of the launch contents: the second kernel's output matrix
    is stage two of the combine weights re-laid and of the first kernel's output matrix, which is stage one of the
    tokens, the weights and the biases; the last host operation re-lays it. -/
theorem result_eq (m : (ℓ : Loc nD τ sig) → Buf (Elt Ideal) ℓ) (c : Dev nD) :
    buf4 (F := Ideal) m c (Proc.devRef .tc main_v3)
      = shapeCast S4x2048x1024
          (Cert.Spec.comb (shapeCast S8192x16384 (m ((c : Thread nD τ).loc main_arg1)) shapeCasts_S8192x8x2048_S8192x16384)
            (Cert.Spec.flat (m ((c : Thread nD τ).loc main_arg0)) (m ((c : Thread nD τ).loc main_arg2)) (m ((c : Thread nD τ).loc main_arg3))))
          shapeCasts_S8192x1024_S4x2048x1024 := by
  rw [buf4_main_v3, Cert.KernelIdeal.Val1.comb_final, ent1_main_v1, ent1_main_v0, Cert.KernelIdeal.Val0.flat_final]

end Cert.KernelIdeal.Result

/-! ## The claims -/

namespace Cert.Proof

open Idealize.ShloMosaic Idealize.ShloMosaic.TcCoe Idealize.SL.Sem

/-- The word-level kernel runs and leaves its arguments as launched. -/
theorem frame_k : Cert.frame_Kernel := fun m ρ _ => Cert.Kernel.Run.frame (F := Bits) m ρ
/-- So does its reading at the ideal instance. -/
theorem frame_ki : Cert.frame_KernelIdeal := fun m ρ _ => Cert.KernelIdeal.Run.frame (F := Ideal) m ρ
/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments both programs end at the specification of those arguments. -/
theorem algebraic : Cert.algebraic_KernelIdeal_ReferenceIdeal := by
  intro m ρ m' ρ' _ hagree
  refine ⟨fun c => Cert.KernelIdeal.Run.buf4 (F := Ideal) m c (Proc.devRef .tc Cert.KernelIdeal.main_v3), ?_, ?_⟩
  · exact (θ_run Cert.KernelIdeal.defs _ _).mono (fun _ h c =>
      ⟨h c _ (Cert.KernelIdeal.Run.mem_uc Cert.KernelIdeal.main_v3 (by decide)),
       (h c _ (Cert.KernelIdeal.Run.mem_uc Cert.KernelIdeal.main_arg0 (by decide))).trans (Cert.KernelIdeal.Run.buf4_main_arg0 m c),
       (h c _ (Cert.KernelIdeal.Run.mem_uc Cert.KernelIdeal.main_arg1 (by decide))).trans (Cert.KernelIdeal.Run.buf4_main_arg1 m c),
       (h c _ (Cert.KernelIdeal.Run.mem_uc Cert.KernelIdeal.main_arg2 (by decide))).trans (Cert.KernelIdeal.Run.buf4_main_arg2 m c),
       (h c _ (Cert.KernelIdeal.Run.mem_uc Cert.KernelIdeal.main_arg3 (by decide))).trans (Cert.KernelIdeal.Run.buf4_main_arg3 m c)⟩)
      (Cert.KernelIdeal.Run.run_all (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2]
    rw [Cert.ReferenceIdeal.Read.val_main_v9_eq, Cert.RefValue.result_eq]
    exact (Cert.KernelIdeal.Result.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
